-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S131072x2 : Shape := ⟨2, ![131072, 2]⟩
abbrev S8192x8192 : Shape := ⟨2, ![8192, 8192]⟩
abbrev S8192x16 : Shape := ⟨2, ![8192, 16]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S80x128 : Shape := ⟨2, ![80, 128]⟩
abbrev S64x1 : Shape := ⟨2, ![64, 1]⟩
abbrev S1 : Shape := ⟨1, ![1]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192x16 : S_.BroadcastsInDim S8192x16 (![] : Fin 0 → Fin S8192x16.rank)
  reducesTo_S8192x16_S_d0_1 : S8192x16.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S80x128 : S_.BroadcastsInDim S80x128 (![] : Fin 0 → Fin S80x128.rank)
  reducesTo_S80x128_S_d0_1 : S80x128.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg12 : FVec F S128x64 .f32) (main_arg13 : FVec F S64 .f32) (main_arg14 : FVec F S64x1 .f32) (main_arg15 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg12
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x1 .f32 := Host.absf main_arg14
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_arg15 main_v63 main_v67

def fn_part2 {F : FTy → Type} [FloatOps F] (main_arg8 : FVec F S64x64 .f32) (main_arg9 : FVec F S64 .f32) (main_arg10 : FVec F S80x128 .f32) (main_arg11 : FVec F S128 .f32) (main_arg12 : FVec F S128x64 .f32) (main_arg13 : FVec F S64 .f32) (main_arg14 : FVec F S64x1 .f32) (main_arg15 : FVec F S1 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S80x128 .f32 := Host.absf main_arg10
  let main_cst_16 : FVec F S_ .f32 := constant S_ .f32 0x7F800000#32
  let main_v45 : FVec F S80x128 .f32 := broadcastInDim S80x128 ![] bcast_S_S80x128 main_cst_16
  let main_v46 : IVec S80x128 1 := cmpf .olt main_v44 main_v45
  let main_c_17 : IVec S_ 1 := constantI S_ 1 1#1
  let main_v47 : IVec S_ 1 := (fun x v => Host.reduce IntOp.andi x v reducesTo_S80x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_v48 main_v49 main_v50

def fn_part1 {F : FTy → Type} [FloatOps F] (main_arg5 : FVec F S128 .f32) (main_arg6 : FVec F S128x64 .f32) (main_arg7 : FVec F S64 .f32) (main_arg8 : FVec F S64x64 .f32) (main_arg9 : FVec F S64 .f32) (main_arg10 : FVec F S80x128 .f32) (main_arg11 : FVec F S128 .f32) (main_arg12 : FVec F S128x64 .f32) (main_arg13 : FVec F S64 .f32) (main_arg14 : FVec F S64x1 .f32) (main_arg15 : FVec F S1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S8192x64 .f32) (main_arg1 : IVec S131072x2 32) (main_arg2 : FVec F S8192x8192 .f32) (main_arg3 : FVec F S8192x16 .f32) (main_arg4 : FVec F S64x128 .f32) (main_arg5 : FVec F S128 .f32) (main_arg6 : FVec F S128x64 .f32) (main_arg7 : FVec F S64 .f32) (main_arg8 : FVec F S64x64 .f32) (main_arg9 : FVec F S64 .f32) (main_arg10 : FVec F S80x128 .f32) (main_arg11 : FVec F S128 .f32) (main_arg12 : FVec F S128x64 .f32) (main_arg13 : FVec F S64 .f32) (main_arg14 : FVec F S64x1 .f32) (main_arg15 : FVec F S1 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x8192 .f32 := Host.absf main_arg2
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x16 .f32 := Host.absf main_arg3
  let main_cst_2 : FVec F S_ .f32 := constant S_ .f32 0x7F800000#32
  let main_v10 : FVec F S8192x16 .f32 := broadcastInDim S8192x16 ![] bcast_S_S8192x16 main_cst_2
  let main_v11 : IVec S8192x16 1 := cmpf .olt main_v9 main_v10
  let main_c_3 : IVec S_ 1 := constantI S_ 1 1#1
  let main_v12 : IVec S_ 1 := (fun x v => Host.reduce IntOp.andi x v reducesTo_S8192x16_S_d0_1 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S8192x64 : Shape := ⟨2, ![8192, 64]⟩
abbrev S131072x2 : Shape := ⟨2, ![131072, 2]⟩
abbrev S8192x8192 : Shape := ⟨2, ![8192, 8192]⟩
abbrev S8192x16 : Shape := ⟨2, ![8192, 16]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S80x128 : Shape := ⟨2, ![80, 128]⟩
abbrev S64x1 : Shape := ⟨2, ![64, 1]⟩
abbrev S1 : Shape := ⟨1, ![1]⟩
abbrev S8192x128 : Shape := ⟨2, ![8192, 128]⟩
abbrev S1x128 : Shape := ⟨2, ![1, 128]⟩
abbrev S_ : Shape := ⟨0, ![]⟩
abbrev S2048x1024 : Shape := ⟨2, ![2048, 1024]⟩
abbrev S1024x128 : Shape := ⟨2, ![1024, 128]⟩
abbrev S2048x128 : Shape := ⟨2, ![2048, 128]⟩
abbrev S1x64 : Shape := ⟨2, ![1, 64]⟩
abbrev S1024x64 : Shape := ⟨2, ![1024, 64]⟩
abbrev S2048x64 : Shape := ⟨2, ![2048, 64]⟩
abbrev S8192x80 : Shape := ⟨2, ![8192, 80]⟩
abbrev S8192x1 : Shape := ⟨2, ![8192, 1]⟩
abbrev S1x1 : Shape := ⟨2, ![1, 1]⟩
abbrev S8192 : Shape := ⟨1, ![8192]⟩

abbrev nBuf : Space → Nat
  | .hbm => 56
  | .vmem => 14
  | .smem => 0
  | _ => 0

abbrev bufTy : (tb : Table) → Fin (tcTables nBuf tb) → BufTy
  | .hbm, ⟨0, _⟩ => ⟨S8192x64, .f32⟩
  | .hbm, ⟨1, _⟩ => ⟨S131072x2, .i32⟩
  | .hbm, ⟨2, _⟩ => ⟨S8192x8192, .f32⟩
  | .hbm, ⟨3, _⟩ => ⟨S8192x16, .f32⟩
  | .hbm, ⟨4, _⟩ => ⟨S64x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S80x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S64x1, .f32⟩
  | .hbm, ⟨15, _⟩ => ⟨S1, .f32⟩
  | .hbm, ⟨16, _⟩ => ⟨S8192x128, .f32⟩
  | .hbm, ⟨17, _⟩ => ⟨S1x128, .f32⟩
  | .hbm, ⟨18, _⟩ => ⟨S8192x128, .f32⟩
  | .hbm, ⟨19, _⟩ => ⟨S8192x128, .f32⟩
  | .hbm, ⟨20, _⟩ => ⟨S_, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S8192x64, .f32⟩
  | .hbm, ⟨25, _⟩ => ⟨S1x64, .f32⟩
  | .hbm, ⟨26, _⟩ => ⟨S8192x64, .f32⟩
  | .hbm, ⟨27, _⟩ => ⟨S8192x64, .f32⟩
  | .hbm, ⟨28, _⟩ => ⟨S_, .f32⟩
  | .hbm, ⟨29, _⟩ => ⟨S8192x64, .f32⟩
  | .hbm, ⟨30, _⟩ => ⟨S8192x64, .f32⟩
  | .hbm, ⟨31, _⟩ => ⟨S8192x64, .f32⟩
  | .hbm, ⟨32, _⟩ => ⟨S8192x64, .f32⟩
  | .hbm, ⟨33, _⟩ => ⟨S1x64, .f32⟩
  | .hbm, ⟨34, _⟩ => ⟨S8192x64, .f32⟩
  | .hbm, ⟨35, _⟩ => ⟨S8192x64, .f32⟩
  | .hbm, ⟨36, _⟩ => ⟨S8192x80, .f32⟩
  | .hbm, ⟨37, _⟩ => ⟨S8192x128, .f32⟩
  | .hbm, ⟨38, _⟩ => ⟨S1x128, .f32⟩
  | .hbm, ⟨39, _⟩ => ⟨S8192x128, .f32⟩
  | .hbm, ⟨40, _⟩ => ⟨S8192x128, .f32⟩
  | .hbm, ⟨41, _⟩ => ⟨S_, .f32⟩
  | .hbm, ⟨42, _⟩ => ⟨S8192x128, .f32⟩
  | .hbm, ⟨43, _⟩ => ⟨S8192x128, .f32⟩
  | .hbm, ⟨44, _⟩ => ⟨S8192x64, .f32⟩
  | .hbm, ⟨45, _⟩ => ⟨S1x64, .f32⟩
  | .hbm, ⟨46, _⟩ => ⟨S8192x64, .f32⟩
  | .hbm, ⟨47, _⟩ => ⟨S8192x64, .f32⟩
  | .hbm, ⟨48, _⟩ => ⟨S_, .f32⟩
  | .hbm, ⟨49, _⟩ => ⟨S8192x64, .f32⟩
  | .hbm, ⟨50, _⟩ => ⟨S8192x64, .f32⟩
  | .hbm, ⟨51, _⟩ => ⟨S8192x1, .f32⟩
  | .hbm, ⟨52, _⟩ => ⟨S1x1, .f32⟩
  | .hbm, ⟨53, _⟩ => ⟨S8192x1, .f32⟩
  | .hbm, ⟨54, _⟩ => ⟨S8192x1, .f32⟩
  | .hbm, ⟨55, _⟩ => ⟨S8192, .f32⟩
  | .local _ .vmem, ⟨0, _⟩ => ⟨S2048x1024, .f32⟩
  | .local _ .vmem, ⟨1, _⟩ => ⟨S2048x1024, .f32⟩
  | .local _ .vmem, ⟨2, _⟩ => ⟨S1024x128, .f32⟩
  | .local _ .vmem, ⟨3, _⟩ => ⟨S1024x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x1024, .f32⟩
  | .local _ .vmem, ⟨8, _⟩ => ⟨S2048x1024, .f32⟩
  | .local _ .vmem, ⟨9, _⟩ => ⟨S1024x64, .f32⟩
  | .local _ .vmem, ⟨10, _⟩ => ⟨S1024x64, .f32⟩
  | .local _ .vmem, ⟨11, _⟩ => ⟨S2048x64, .f32⟩
  | .local _ .vmem, ⟨12, _⟩ => ⟨S2048x64, .f32⟩
  | .local _ .vmem, ⟨13, _⟩ => ⟨S2048x64, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_cst : Ref sig .tc := ⟨.hbm, 28, rfl⟩
abbrev main_call1_v0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_call2_cst : Ref sig .tc := ⟨.hbm, 41, rfl⟩
abbrev main_call2_v0 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_call3_cst : Ref sig .tc := ⟨.hbm, 48, rfl⟩
abbrev main_call3_v0 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  concatenates_S8192x64_S8192x16_S8192x80_d1 : Shape.Concatenates [S8192x64, S8192x16] S8192x80 1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  shapeCasts_S8192x1_S8192 : S8192x1.ShapeCasts S8192
  dot_S8192x64_S64x128_S8192x128_1_0_0_1_n_n_wf : DotDims.WF S8192x64 S64x128 S8192x128 [1] [0] [0] [1] [] []
  dot_S2048x1024_S1024x128_S2048x128_1_0_0_1_n_n_wf : DotDims.WF S2048x1024 S1024x128 S2048x128 [1] [0] [0] [1] [] []
  dot_S8192x128_S128x64_S8192x64_1_0_0_1_n_n_wf : DotDims.WF S8192x128 S128x64 S8192x64 [1] [0] [0] [1] [] []
  dot_S2048x1024_S1024x64_S2048x64_1_0_0_1_n_n_wf : DotDims.WF S2048x1024 S1024x64 S2048x64 [1] [0] [0] [1] [] []
  dot_S8192x64_S64x64_S8192x64_1_0_0_1_n_n_wf : DotDims.WF S8192x64 S64x64 S8192x64 [1] [0] [0] [1] [] []
  dot_S8192x80_S80x128_S8192x128_1_0_0_1_n_n_wf : DotDims.WF S8192x80 S80x128 S8192x128 [1] [0] [0] [1] [] []
  dot_S8192x64_S64x1_S8192x1_1_0_0_1_n_n_wf : DotDims.WF S8192x64 S64x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x8192.size a
  hwx0_0 : ∀ i : grid0.Coords, EltTy.bits .f32 = 32 ∨ (Rect.block (s := S8192x8192) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S8192x128.size a
  hwx0_2 : ∀ i : grid0.Coords, EltTy.bits .f32 = 32 ∨ (Rect.block (s := S8192x128) S2048x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x8192.size a
  hwx1_0 : ∀ i : grid1.Coords, EltTy.bits .f32 = 32 ∨ (Rect.block (s := S8192x8192) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S8192x64.size a
  hwx1_1 : ∀ i : grid1.Coords, EltTy.bits .f32 = 32 ∨ (Rect.block (s := S8192x64) S1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S8192x64.size a
  hwx1_2 : ∀ i : grid1.Coords, EltTy.bits .f32 = 32 ∨ (Rect.block (s := S8192x64) S2048x64.size (cc1_transform_2 i) (hinb1_2 i)).WholeWords (EltTy.packing .f32)

variable [Facts₀]

def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x80_S80x128_S8192x128_1_0_0_1_n_n : DotDims S8192x80 S80x128 S8192x128 where
  lhsContracting := [1]
  rhsContracting := [0]
  lhsNonContracting := [0]
  rhsNonContracting := [1]
  lhsBatch := []
  rhsBatch := []
  wf := dot_S8192x80_S80x128_S8192x128_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf

abbrev win0_0 : Pipeline.Window sig grid0 :=
  Pipeline.Window.ofSpec (Memref.whole main_arg2) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg2) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2048x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x64 : Shape := ⟨2, ![8192, 64]⟩
abbrev S131072x2 : Shape := ⟨2, ![131072, 2]⟩
abbrev S8192x8192 : Shape := ⟨2, ![8192, 8192]⟩
abbrev S8192x16 : Shape := ⟨2, ![8192, 16]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S80x128 : Shape := ⟨2, ![80, 128]⟩
abbrev S64x1 : Shape := ⟨2, ![64, 1]⟩
abbrev S1 : Shape := ⟨1, ![1]⟩
abbrev S8192x128 : Shape := ⟨2, ![8192, 128]⟩
abbrev S1x128 : Shape := ⟨2, ![1, 128]⟩
abbrev S_ : Shape := ⟨0, ![]⟩
abbrev S1x64 : Shape := ⟨2, ![1, 64]⟩
abbrev S8192x80 : Shape := ⟨2, ![8192, 80]⟩
abbrev S8192x1 : Shape := ⟨2, ![8192, 1]⟩
abbrev S1x1 : Shape := ⟨2, ![1, 1]⟩
abbrev S8192 : Shape := ⟨1, ![8192]⟩

abbrev nBuf : Space → Nat
  | .hbm => 56
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S131072x2, .i32⟩
  | .hbm, ⟨2, _⟩ => ⟨S8192x8192, .f32⟩
  | .hbm, ⟨3, _⟩ => ⟨S8192x16, .f32⟩
  | .hbm, ⟨4, _⟩ => ⟨S64x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S80x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S64x1, .f32⟩
  | .hbm, ⟨15, _⟩ => ⟨S1, .f32⟩
  | .hbm, ⟨16, _⟩ => ⟨S8192x128, .f32⟩
  | .hbm, ⟨17, _⟩ => ⟨S1x128, .f32⟩
  | .hbm, ⟨18, _⟩ => ⟨S8192x128, .f32⟩
  | .hbm, ⟨19, _⟩ => ⟨S8192x128, .f32⟩
  | .hbm, ⟨20, _⟩ => ⟨S_, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S8192x64, .f32⟩
  | .hbm, ⟨25, _⟩ => ⟨S1x64, .f32⟩
  | .hbm, ⟨26, _⟩ => ⟨S8192x64, .f32⟩
  | .hbm, ⟨27, _⟩ => ⟨S8192x64, .f32⟩
  | .hbm, ⟨28, _⟩ => ⟨S_, .f32⟩
  | .hbm, ⟨29, _⟩ => ⟨S8192x64, .f32⟩
  | .hbm, ⟨30, _⟩ => ⟨S8192x64, .f32⟩
  | .hbm, ⟨31, _⟩ => ⟨S8192x64, .f32⟩
  | .hbm, ⟨32, _⟩ => ⟨S8192x64, .f32⟩
  | .hbm, ⟨33, _⟩ => ⟨S1x64, .f32⟩
  | .hbm, ⟨34, _⟩ => ⟨S8192x64, .f32⟩
  | .hbm, ⟨35, _⟩ => ⟨S8192x64, .f32⟩
  | .hbm, ⟨36, _⟩ => ⟨S8192x80, .f32⟩
  | .hbm, ⟨37, _⟩ => ⟨S8192x128, .f32⟩
  | .hbm, ⟨38, _⟩ => ⟨S1x128, .f32⟩
  | .hbm, ⟨39, _⟩ => ⟨S8192x128, .f32⟩
  | .hbm, ⟨40, _⟩ => ⟨S8192x128, .f32⟩
  | .hbm, ⟨41, _⟩ => ⟨S_, .f32⟩
  | .hbm, ⟨42, _⟩ => ⟨S8192x128, .f32⟩
  | .hbm, ⟨43, _⟩ => ⟨S8192x128, .f32⟩
  | .hbm, ⟨44, _⟩ => ⟨S8192x64, .f32⟩
  | .hbm, ⟨45, _⟩ => ⟨S1x64, .f32⟩
  | .hbm, ⟨46, _⟩ => ⟨S8192x64, .f32⟩
  | .hbm, ⟨47, _⟩ => ⟨S8192x64, .f32⟩
  | .hbm, ⟨48, _⟩ => ⟨S_, .f32⟩
  | .hbm, ⟨49, _⟩ => ⟨S8192x64, .f32⟩
  | .hbm, ⟨50, _⟩ => ⟨S8192x64, .f32⟩
  | .hbm, ⟨51, _⟩ => ⟨S8192x1, .f32⟩
  | .hbm, ⟨52, _⟩ => ⟨S1x1, .f32⟩
  | .hbm, ⟨53, _⟩ => ⟨S8192x1, .f32⟩
  | .hbm, ⟨54, _⟩ => ⟨S8192x1, .f32⟩
  | .hbm, ⟨55, _⟩ => ⟨S8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_cst : Ref sig .tc := ⟨.hbm, 28, rfl⟩
abbrev main_call1_v0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_call2_cst : Ref sig .tc := ⟨.hbm, 41, rfl⟩
abbrev main_call2_v0 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_call3_cst : Ref sig .tc := ⟨.hbm, 48, rfl⟩
abbrev main_call3_v0 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  concatenates_S8192x64_S8192x16_S8192x80_d1 : Shape.Concatenates [S8192x64, S8192x16] S8192x80 1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  shapeCasts_S8192x1_S8192 : S8192x1.ShapeCasts S8192
  dot_S8192x64_S64x128_S8192x128_1_0_0_1_n_n_wf : DotDims.WF S8192x64 S64x128 S8192x128 [1] [0] [0] [1] [] []
  dot_S8192x8192_S8192x128_S8192x128_1_0_0_1_n_n_wf : DotDims.WF S8192x8192 S8192x128 S8192x128 [1] [0] [0] [1] [] []
  dot_S8192x128_S128x64_S8192x64_1_0_0_1_n_n_wf : DotDims.WF S8192x128 S128x64 S8192x64 [1] [0] [0] [1] [] []
  dot_S8192x8192_S8192x64_S8192x64_1_0_0_1_n_n_wf : DotDims.WF S8192x8192 S8192x64 S8192x64 [1] [0] [0] [1] [] []
  dot_S8192x64_S64x64_S8192x64_1_0_0_1_n_n_wf : DotDims.WF S8192x64 S64x64 S8192x64 [1] [0] [0] [1] [] []
  dot_S8192x80_S80x128_S8192x128_1_0_0_1_n_n_wf : DotDims.WF S8192x80 S80x128 S8192x128 [1] [0] [0] [1] [] []
  dot_S8192x64_S64x1_S8192x1_1_0_0_1_n_n_wf : DotDims.WF S8192x64 S64x1 S8192x1 [1] [0] [0] [1] [] []

variable [Facts₀]

def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x80_S80x128_S8192x128_1_0_0_1_n_n : DotDims S8192x80 S80x128 S8192x128 where
  lhsContracting := [1]
  rhsContracting := [0]
  lhsNonContracting := [0]
  rhsNonContracting := [1]
  lhsBatch := []
  rhsBatch := []
  wf := dot_S8192x80_S80x128_S8192x128_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf

class Facts : Prop extends Facts₀ where

variable [Facts]
-- ==== Proof.KernelIdeal.AccStep0.lean ====
/-
  One grid point of the first aggregation kernel, `A @ X` tiled as a (4, 8) grid: rows of `A` in four
  blocks of 2048, the contracted axis in eight blocks of 1024. The kernel keeps a 2048×128 accumulator
  in scratch memory across the eight points of a row block: at the first of them (k = 0) it zeroes the
  accumulator, at every point it adds the product of the current 2048×1024 block of `A` with the current
  1024×128 block of `X`, and at the last (k = 7) it copies the accumulator into the output block.

  Stated here, at any float instance: the three ways a point can go (first / middle / last of a row
  block), each as a triple over whole staging buffers. With `x0`, `x1` the two input blocks and `s` what
  the accumulator held, every case leaves `step x0 x1 s' = s' + x0·x1` in the accumulator, where `s'` is
  the zero block at a first point and `s` otherwise; only the last point writes the output block, and
  writes that same value.
-/
import proofs.«101012_j62285615727119_1_alg».proof.Proof.Gen.KernelIdeal.Launch
import proofs.«101012_j62285615727119_1_alg».proof.Proof.Gen.KernelIdeal.Skeleton
import proofs.«101012_j62285615727119_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Acc0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where a point sits in its row block -/

/-- The point is the first of its row block: the contracted-axis coordinate is 0. -/
abbrev isFirst (i : grid0.Coords) : Prop := (Scalar.cmpi .ne (Scalar.extui (Scalar.cmpi .eq (BitVec.ofNat 32 (i 1).val) 0#32)) 0#32) = 1#1
/-- The point is the last of its row block: the contracted-axis coordinate is 7. -/
abbrev isLast (i : grid0.Coords) : Prop := k0_cond2 i = 1#1

/-- In the row-major order of the 32 points the first points are those ≡ 0 (mod 8), -/
theorem isFirst_iff : ∀ t : Fin cfg0.N, isFirst (grid0.coords t) ↔ t.val % 8 = 0 :=
  (by decide +kernel : ∀ t : Fin grid0.N, isFirst (grid0.coords t) ↔ t.val % 8 = 0)
/-- and the last points those ≡ 7 (mod 8). -/
theorem isLast_iff : ∀ t : Fin cfg0.N, isLast (grid0.coords t) ↔ t.val % 8 = 7 :=
  (by decide +kernel : ∀ t : Fin grid0.N, isLast (grid0.coords t) ↔ t.val % 8 = 7)

/-! ## Which windows a point touches -/

/-- The two input windows are read at every point. -/
theorem live_0 : ∀ t : Fin cfg0.N, cfg0.idle 0 (grid0.coords t) = false := by decide +kernel
theorem live_1 : ∀ t : Fin cfg0.N, cfg0.idle 1 (grid0.coords t) = false := by decide +kernel
/-- The output window is written only at a last point: elsewhere it is idle and is not written back. -/
theorem idle_2 : ∀ t : Fin cfg0.N, ¬isLast (grid0.coords t) → cfg0.idle 2 (grid0.coords t) = true := by decide +kernel
theorem noFlush_2 : ∀ t : Fin cfg0.N, ¬isLast (grid0.coords t) → (cfg0.win 2).flush t = false := by decide +kernel
theorem live_2 : ∀ t : Fin cfg0.N, isLast (grid0.coords t) → cfg0.idle 2 (grid0.coords t) = false := by decide +kernel

/-! ## The accumulation step -/

/-- The zero block the accumulator is reset to. -/
abbrev zeroBlk : Vec F S2048x128 .f32 := k0_pay1 (F := F)
/-- One step: the accumulator `s` plus the product of the `A` block `x0` and the `X` block `x1`. -/
abbrev step (x0 : Vec F S2048x1024 .f32) (x1 : Vec F S1024x128 .f32) (s : Vec F S2048x128 .f32) : Vec F S2048x128 .f32 :=
  k0_pay2 x0 x1 s

/-- Every access of the body is through the whole-buffer rectangle at offset (0, 0). -/
theorem off_zero : (![0, 0] : Fin 2 → Nat) = fun _ => 0 := by funext a; fin_cases a <;> rfl

/-- The scratch accumulator as the pipeline passes it to the body. -/
abbrev accM : Memref sig .tc .vmem S2048x128 .f32 := Memref.whole cc0_scratch0

set_option maxHeartbeats 1000000 in
/-- FIRST point of a row block (not the last): whatever the accumulator held, it ends at `step x0 x1 0`; the output
    block is not touched. -/
theorem run_first (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole)
    (hc0 : isFirst i) (hc1 : ¬isLast i)
    (x0 : Vec F S2048x1024 .f32) (x1 : Vec F S1024x128 .f32) (xo : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare xo ∗ (∃ d, owns (c : Thread nD τ) arg5 fullShare d)
        ∗ (iprop(owns (c : Thread nD τ) arg2 fullShare x0 ∗ owns (c : Thread nD τ) arg3 fullShare x1 ∗ owns (c : Thread nD τ) arg4 fullShare xo ∗ owns (c : Thread nD τ) arg5 fullShare (step x0 x1 zeroBlk)) -∗ K ⟨⟩))
      ⊢ wp frame (wpE (defs₀ (F := F)) Variants.none c none) E (cc0__agg_matmul_kernel i arg2 harg2 arg3 harg3 arg4 harg4 arg5 harg5) K := by
  simp only [cc0__agg_matmul_kernel_eq_skeleton]; unfold cc0__agg_matmul_kernel_skel
  unfold owns
  iintro ⟨⟨%f0, %hf0, H0⟩, ⟨%f1, %hf1, H1⟩, ⟨%f4, %hf4, H4⟩, ⟨%d5, %f5, -, HS⟩, Hk⟩
  obtain rfl := harg2.eq_unread hf0; obtain rfl := harg3.eq_unread hf1; obtain rfl := harg4.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  iexists _; isplitr
  swap; · iexact HS
  ipureintro
  sl_unfold_words
  rw [View.read_writes_eq_canon _ _ _ (fun y => ⟨_, List.mem_cons_self, View.mem_set_unit_zero off_zero inb_S2048x128_S2048x128_0_0 y⟩), View.canon_cons_unit_zero off_zero, View.readCov_unit_zero (S := S2048x128) _ off_zero]
  simp only [View.readAt_eq_ld, harg2.read_unread, harg3.read_unread, View.ld_unit_zero (S := S2048x1024) off_zero, View.ld_unit_zero (S := S1024x128) off_zero, View.ld_unit_zero (S := S2048x128) off_zero]

set_option maxHeartbeats 1000000 in
/-- MIDDLE point (neither first nor last): the accumulator goes from `s` to `step x0 x1 s`; the output block is not
    touched. -/
theorem run_mid (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole)
    (hc0 : ¬isFirst i) (hc1 : ¬isLast i)
    (x0 : Vec F S2048x1024 .f32) (x1 : Vec F S1024x128 .f32) (xo : Vec F S2048x128 .f32) (s : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare s
        ∗ (iprop(owns (c : Thread nD τ) arg2 fullShare x0 ∗ owns (c : Thread nD τ) arg3 fullShare x1 ∗ owns (c : Thread nD τ) arg4 fullShare xo ∗ owns (c : Thread nD τ) arg5 fullShare (step x0 x1 s)) -∗ K ⟨⟩))
      ⊢ wp frame (wpE (defs₀ (F := F)) Variants.none c none) E (cc0__agg_matmul_kernel i arg2 harg2 arg3 harg3 arg4 harg4 arg5 harg5) K := by
  simp only [cc0__agg_matmul_kernel_eq_skeleton]; unfold cc0__agg_matmul_kernel_skel
  unfold owns
  iintro ⟨⟨%f0, %hf0, H0⟩, ⟨%f1, %hf1, H1⟩, ⟨%f4, %hf4, H4⟩, ⟨%fs, %hfs, HS⟩, Hk⟩
  obtain rfl := harg2.eq_unread hf0; obtain rfl := harg3.eq_unread hf1; obtain rfl := harg4.eq_unread hf4; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  iexists _; isplitr
  swap; · iexact HS
  ipureintro
  sl_unfold_words
  rw [View.read_writes_eq_canon _ _ _ (fun y => ⟨_, List.mem_cons_self, View.mem_set_unit_zero off_zero inb_S2048x128_S2048x128_0_0 y⟩), View.canon_cons_unit_zero off_zero]
  simp only [View.readAt_eq_ld, harg2.read_unread, harg3.read_unread, harg5.read_unread, View.ld_unit_zero (S := S2048x1024) off_zero, View.ld_unit_zero (S := S1024x128) off_zero, View.ld_unit_zero (S := S2048x128) off_zero]

set_option maxHeartbeats 1000000 in
/-- LAST point of a row block (not the first): the accumulator goes from `s` to `step x0 x1 s`, and the output block,
    whatever it held, ends at that same value. -/
theorem run_last (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole)
    (hc0 : ¬isFirst i) (hc1 : isLast i)
    (x0 : Vec F S2048x1024 .f32) (x1 : Vec F S1024x128 .f32) (s : Vec F S2048x128 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare s
        ∗ (iprop(owns (c : Thread nD τ) arg2 fullShare x0 ∗ owns (c : Thread nD τ) arg3 fullShare x1 ∗ owns (c : Thread nD τ) arg4 fullShare (step x0 x1 s) ∗ owns (c : Thread nD τ) arg5 fullShare (step x0 x1 s)) -∗ K ⟨⟩))
      ⊢ wp frame (wpE (defs₀ (F := F)) Variants.none c none) E (cc0__agg_matmul_kernel i arg2 harg2 arg3 harg3 arg4 harg4 arg5 harg5) K := by
  simp only [cc0__agg_matmul_kernel_eq_skeleton]; unfold cc0__agg_matmul_kernel_skel
  unfold owns
  iintro ⟨⟨%f0, %hf0, H0⟩, ⟨%f1, %hf1, H1⟩, ⟨%d4, %f4, -, H4⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_words
    rw [View.read_writes_eq_canon _ _ _ (fun y => ⟨_, List.mem_singleton_self _, View.mem_set_unit_zero off_zero inb_S2048x128_S2048x128_0_0 y⟩), View.canon_unit_zero off_zero, View.readCov_unit_zero _ off_zero]
    simp only [View.readAt_eq_ld, harg2.read_unread, harg3.read_unread, harg5.read_unread, View.ld_unit_zero (S := S2048x1024) off_zero, View.ld_unit_zero (S := S1024x128) off_zero, View.ld_unit_zero (S := S2048x128) off_zero]
  · iexists _; isplitr
    swap; · iexact HS
    ipureintro
    sl_unfold_words
    rw [View.read_writes_eq_canon _ _ _ (fun y => ⟨_, List.mem_singleton_self _, View.mem_set_unit_zero off_zero inb_S2048x128_S2048x128_0_0 y⟩), View.canon_unit_zero off_zero]
    simp only [View.readAt_eq_ld, harg2.read_unread, harg3.read_unread, harg5.read_unread, View.ld_unit_zero (S := S2048x1024) off_zero, View.ld_unit_zero (S := S1024x128) off_zero, View.ld_unit_zero (S := S2048x128) off_zero]

end Cert.KernelIdeal.Acc0

end
-- ==== Proof.KernelIdeal.AccData0.lean ====
/-
  The first aggregation kernel over its whole grid, at any float instance. `V` is what the buffers hold when the
  call is entered: `A` is the 8192×8192 argument, `X` the 8192×128 activation a host stretch wrote.

  `acc n` is what the scratch accumulator holds after grid point `n` (row-major over the (4, 8) grid): the points
  ≡ 0 (mod 8) restart from the zero block, every point adds its block product,
      acc n = step (A-block n) (X-block n) (if n ≡ 0 then 0 else acc (n − 1)).
  The call's proof data says exactly that: the two input windows hold their blocks, the output window holds `acc n`
  where it is written (n ≡ 7), and the invariant carries the accumulator at `acc (n − 1)` into point `n`.
-/
import proofs.«101012_j62285615727119_1_alg».proof.Proof.KernelIdeal.AccStep0

set_option maxRecDepth 16384

noncomputable section

namespace Cert.KernelIdeal.Acc0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of `A` point `t` multiplies: rows 2048·(t / 8) …, columns 1024·(t % 8) …. -/
abbrev ablk (c : Dev nD) (t : Fin cfg0.N) : Vec F S2048x1024 .f32 := iblk V c 0 t
/-- The block of `X` point `t` multiplies: rows 1024·(t % 8) …, all 128 columns. -/
abbrev xblk (c : Dev nD) (t : Fin cfg0.N) : Vec F S1024x128 .f32 := iblk V c 1 t

/-- An input window's staging buffer holds its block at every point (it is fetched at every point, whole), for any
    proof data over `V` that leaves the block in place. -/
theorem before_in0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The accumulator after each point -/

/-- What the scratch accumulator holds after point `n`. -/
def acc (c : Dev nD) : (n : ℕ) → n < cfg0.N → Vec F S2048x128 .f32
  | 0, hn => step (ablk V c ⟨0, hn⟩) (xblk V c ⟨0, hn⟩) zeroBlk
  | n + 1, hn =>
    if (n + 1) % 8 = 0 then step (ablk V c ⟨n + 1, hn⟩) (xblk V c ⟨n + 1, hn⟩) zeroBlk
    else step (ablk V c ⟨n + 1, hn⟩) (xblk V c ⟨n + 1, hn⟩) (acc c n (Nat.lt_of_succ_lt hn))

/-- At a first point the accumulator restarts from zero; -/
theorem acc_first (c : Dev nD) (t : Fin cfg0.N) (h : t.val % 8 = 0) :
    acc V c t.val t.isLt = step (ablk V c t) (xblk V c t) zeroBlk := by
  obtain ⟨n, hn⟩ := t
  cases n with
  | zero => rfl
  | succ n => exact if_pos h
/-- at any other point it continues from the point before. -/
theorem acc_next (c : Dev nD) (t : Fin cfg0.N) (h : ¬t.val % 8 = 0) :
    acc V c t.val t.isLt = step (ablk V c t) (xblk V c t) (acc V c (t.val - 1) (Nat.lt_of_le_of_lt (Nat.sub_le _ _) t.isLt)) := by
  obtain ⟨n, hn⟩ := t
  cases n with
  | zero => exact absurd (Nat.zero_mod _) h
  | succ n => exact if_neg h

/-! ## The invariant: the accumulator between points -/

/-- The core's scoped buffers other than this call's staging buffers and accumulator, each at some contents. -/
abbrev others (c : Dev nD) : sProp 𝕄 :=
  Pipeline.scopedRestBut (Ix := Unit) (Name := ℕ) (U := UR sig nD τ) (Lvl := ℕ) (Val := Elt F) spec0 c [cc0_scratch0]

/-- What the launch hands the call — every scoped buffer that is no staging buffer at some contents, and the generator
    register — is the accumulator at some contents beside the others. -/
theorem PhiA_split (c : Dev nD) :
    (Pipeline.ΦA spec0 c : sProp 𝕄)
      = iprop(((∃ d, owns (c : Thread nD τ) accM fullShare d) ∗ others c) ∗ (∃ r, prngReg c r)) := by
  unfold Pipeline.ΦA
  rw [Pipeline.scopedRest_split_of_list spec0 c [cc0_scratch0] (by decide) (by decide)]
  simp only [accM, owns_whole]
  rfl

/-- Before point `n`: at the very start whatever the launch hands over; afterwards the accumulator at `acc (n − 1)`. -/
def inv (c : Dev nD) : (n : ℕ) → n ≤ cfg0.N → sProp 𝕄
  | 0, _ => Pipeline.ΦA spec0 c
  | n + 1, hn => iprop((owns (c : Thread nD τ) accM fullShare (acc V c n hn) ∗ others c) ∗ (∃ r, prngReg c r))

theorem inv_zero (c : Dev nD) (n : ℕ) (h : n ≤ cfg0.N) (hz : n = 0) : inv V c n h = Pipeline.ΦA spec0 c := by
  subst hz; rfl
theorem inv_succ (c : Dev nD) (n : ℕ) (hn : n < cfg0.N) :
    inv V c (n + 1) hn = iprop((owns (c : Thread nD τ) accM fullShare (acc V c n hn) ∗ others c) ∗ (∃ r, prngReg c r)) := rfl
theorem inv_pos (c : Dev nD) (n : ℕ) (h : n ≤ cfg0.N) (hz : n ≠ 0) :
    inv V c n h = iprop((owns (c : Thread nD τ) accM fullShare (acc V c (n - 1) (by omega)) ∗ others c) ∗ (∃ r, prngReg c r)) := by
  cases n with
  | zero => exact absurd rfl hz
  | succ n => rfl

/-- Whatever the invariant says of the accumulator, it is the accumulator at SOME contents. -/
theorem inv_weaken (c : Dev nD) (n : ℕ) (h : n ≤ cfg0.N) :
    inv V c n h ⊢ (iprop(((∃ d, owns (c : Thread nD τ) accM fullShare d) ∗ others c) ∗ (∃ r, prngReg c r)) : sProp 𝕄) := by
  cases n with
  | zero => rw [inv_zero V c 0 h rfl, PhiA_split]
  | succ n =>
    rw [inv_succ]
    iintro ⟨⟨HS, Ho⟩, Hg⟩
    isplitl [HS Ho]
    · isplitl [HS]
      · iexists _; iexact HS
      iexact Ho
    iexact Hg

/-! ## The call's proof data -/

/-- The arrays as the call finds them; after the body at point `t` the inputs' buffers at their blocks and the
    output's at `acc t`; the invariant `inv`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => acc V c t.val t.isLt
  Φ t := inv V c t.val (Nat.le_of_lt_succ t.isLt)
  q _ := fullShare
  owed _ := 0

theorem A_eq (c : Dev nD) (w : Fin cfg0.W) : (dat V c).A w = V c (Pipeline.arrRef spec0 w) := by
  dsimp only [dat]
theorem Phi_castSucc (c : Dev nD) (t : Fin cfg0.N) :
    (dat V c).Φ t.castSucc = inv V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = acc V c t.val t.isLt := by dsimp only [dat]

theorem before_0 (c : Dev nD) (t : Fin cfg0.N) (d) : (dat V c).before 0 t d = iblk V c 0 t :=
  before_in0_of V (dat V c) (A_eq V c 0) (after_0 V c) t d
theorem before_1 (c : Dev nD) (t : Fin cfg0.N) (d) : (dat V c).before 1 t d = iblk V c 1 t :=
  before_in1_of V (dat V c) (A_eq V c 1) (after_1 V c) t d

/-! ## The body obligation -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
/-- The body at any point, by where the point sits in its row block. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = inv V c (t.val + 1) t.isLt from rfl, inv_succ]
  rw [show (dat V c).leavesExact 0 t = owns (c : Thread nD τ) (st0_0 t) fullShare ((dat V c).after 0 t) from by
    unfold Dat.leavesExact; rw [live_0 t], after_0]
  rw [show (dat V c).leavesExact 1 t = owns (c : Thread nD τ) (st0_1 t) fullShare ((dat V c).after 1 t) from by
    unfold Dat.leavesExact; rw [live_1 t], after_1]
  have hN : t.val < 32 := lt_of_lt_of_eq t.isLt (show cfg0.N = 32 from N_0)
  rw [Phi_castSucc V c t]
  by_cases h0 : t.val % 8 = 0
  · have hl : ¬isLast (grid0.coords t) := fun h => by have := (isLast_iff t).mp h; omega
    rw [Dat.leavesExact_idle (dat V c) 2 t (idle_2 t hl) (noFlush_2 t hl), acc_first V c t h0]
    refine (sep_mono (inv_weaken V c _ _) .rfl).trans ?_
    iintro ⟨⟨⟨HS, Ho⟩, Hg⟩, Hw, ⟨%d0, H0⟩, ⟨%d1, H1⟩, ⟨%d2, H2⟩⟩
    iapply (run_first c (grid0.coords t) _ _ _ _ _ _ _ _ ((isFirst_iff t).mpr h0) hl (ablk V c t) (xblk V c t) ((dat V c).before 2 t d2) Set.univ _)
    isplitl [H0]; · iexact H0
    isplitl [H1]; · iexact H1
    isplitl [H2]; · iexact H2
    isplitl [HS]; · iexact HS
    iintro ⟨H0, H1, H2, HS⟩
    isplitl [HS Ho Hg]
    · isplitl [HS Ho]
      · isplitl [HS]; · iexact HS
        iexact Ho
      iexact Hg
    isplitl [Hw]; · iexact Hw
    isplitl [H0]; · iexact H0
    isplitl [H1]; · iexact H1
    iexists _; iexact H2
  · have hz : t.val ≠ 0 := fun h => h0 (by rw [h])
    have hf : ¬isFirst (grid0.coords t) := fun h => h0 ((isFirst_iff t).mp h)
    rw [inv_pos V c _ _ hz, acc_next V c t h0]
    by_cases h1 : t.val % 8 = 7
    · have hl : isLast (grid0.coords t) := (isLast_iff t).mpr h1
      rw [show (dat V c).leavesExact 2 t = owns (c : Thread nD τ) (st0_2 t) fullShare ((dat V c).after 2 t) from by
        unfold Dat.leavesExact; rw [live_2 t hl], after_2, acc_next V c t h0]
      iintro ⟨⟨⟨HS, Ho⟩, Hg⟩, Hw, ⟨%d0, H0⟩, ⟨%d1, H1⟩, ⟨%d2, H2⟩⟩
      iapply (run_last c (grid0.coords t) _ _ _ _ _ _ _ _ hf hl (ablk V c t) (xblk V c t) _ Set.univ _)
      isplitl [H0]; · iexact H0
      isplitl [H1]; · iexact H1
      isplitl [H2]; · iexists _; iexact H2
      isplitl [HS]; · iexact HS
      iintro ⟨H0, H1, H2, HS⟩
      isplitl [HS Ho Hg]
      · isplitl [HS Ho]
        · isplitl [HS]; · iexact HS
          iexact Ho
        iexact Hg
      isplitl [Hw]; · iexact Hw
      isplitl [H0]; · iexact H0
      isplitl [H1]; · iexact H1
      iexact H2
    · have hl : ¬isLast (grid0.coords t) := fun h => h1 ((isLast_iff t).mp h)
      rw [Dat.leavesExact_idle (dat V c) 2 t (idle_2 t hl) (noFlush_2 t hl)]
      iintro ⟨⟨⟨HS, Ho⟩, Hg⟩, Hw, ⟨%d0, H0⟩, ⟨%d1, H1⟩, ⟨%d2, H2⟩⟩
      iapply (run_mid c (grid0.coords t) _ _ _ _ _ _ _ _ hf hl (ablk V c t) (xblk V c t) ((dat V c).before 2 t d2) _ Set.univ _)
      isplitl [H0]; · iexact H0
      isplitl [H1]; · iexact H1
      isplitl [H2]; · iexact H2
      isplitl [HS]; · iexact HS
      iintro ⟨H0, H1, H2, HS⟩
      isplitl [HS Ho Hg]
      · isplitl [HS Ho]
        · isplitl [HS]; · iexact HS
          iexact Ho
        iexact Hg
      isplitl [Hw]; · iexact Hw
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the call is the invariant before the first point; -/
theorem inv_in (c : Dev nD) : Pipeline.ΦA spec0 c ⊢ (dat V c).Φ 0 := by
  rw [show (dat V c).Φ 0 = inv V c 0 (Nat.zero_le _) from rfl, inv_zero V c 0 _ rfl]

/-- and after the last point the invariant gives it back, the accumulator's contents forgotten. -/
theorem inv_out (c : Dev nD) : (dat V c).Φ (Fin.last cfg0.N) ⊢ Pipeline.ΦA spec0 c := by
  rw [show (dat V c).Φ (Fin.last cfg0.N) = inv V c (Fin.last cfg0.N).val (Nat.le_of_lt_succ (Fin.last cfg0.N).isLt) from rfl, PhiA_split]
  exact inv_weaken V c _ _

end Cert.KernelIdeal.Acc0

end
-- ==== Proof.KernelIdeal.MainRun.lean ====
/-
  The whole program from launch to return, at any float instance: @main is eleven items — host stretches of StableHLO
  operations and the two aggregation calls `A @ X` — and between two items each core's unscoped buffers hold known
  contents: the launch memory, then each host stretch applied in turn, and after a call its output array (`main_v5`
  for the first, `main_v11` for the second) replaced by what the call's write-backs leave there, namely the call's
  accumulator blocks (`Acc0.dat … .arrAt 2`, `Acc1.dat … .arrAt 2`). Every weakly fair execution terminates without
  a fault, and every final memory holds each unscoped buffer at the last of these valuations (`run_all`); in
  particular the sixteen arguments end as launched (`frame`).
-/
import proofs.«101012_j62285615727119_1_alg».proof.Proof.KernelIdeal.AccData0
import proofs.«101012_j62285615727119_1_alg».proof.Proof.KernelIdeal.AccData1
import proofs.«101012_j62285615727119_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents around the two calls -/

/-- What the first call is entered with: the launch memory after the first two host stretches. -/
abbrev in0 : (c : Dev nD) → (b : Ref sig .tc) → Buf (Elt F) ((c : Thread nD τ).loc b) := fun c b => V2 m c b

/-- After the first call: its arrays at what the pipeline leaves, every other buffer as entered. -/
def after0 (c : Dev nD) : Valuation τ sig (Elt F) :=
  Pipeline.withArrays spec0 c (V2 m c) fun w => (Acc0.dat (in0 m) c).arrAt w cfg0.N

/-- The contents the calls leave, with only the first call's named. -/
def outsFst : Outs (F := F) := fun _ r c => after0 m c r

/-- What the second call is entered with: the two host stretches between the calls applied to what the first left. -/
abbrev in1 : (c : Dev nD) → (b : Ref sig .tc) → Buf (Elt F) ((c : Thread nD τ).loc b) := fun c b => V5 m (outsFst m) c b

/-- After the second call: its arrays at what the pipeline leaves, every other buffer as entered. -/
def after1 (c : Dev nD) : Valuation τ sig (Elt F) :=
  Pipeline.withArrays spec1 c (V5 m (outsFst m) c) fun w => (Acc1.dat (in1 m) c).arrAt w cfg1.N

/-- The contents the calls leave: `outs 3 main_v5` what the first call leaves in its output array, `outs 6 main_v11`
    what the second does. -/
def outs : Outs (F := F) := fun J r c => if J = 6 then after1 m c r else after0 m c r

theorem outs_three (r : Ref sig .tc) (c : Dev nD) : outs m 3 r c = after0 m c r := rfl
theorem outs_six (r : Ref sig .tc) (c : Dev nD) : outs m 6 r c = after1 m c r := rfl

/-- The first call's output array after the call is the fold of its write-backs. -/
theorem outs_v5 (c : Dev nD) : outs m 3 main_v5 c = (Acc0.dat (in0 m) c).arrAt 2 cfg0.N := by
  show Pipeline.withArrays spec0 c (V2 m c) (fun w => (Acc0.dat (in0 m) c).arrAt w cfg0.N) (Proc.devRef .tc (Pipeline.arrRef spec0 2)) = _
  exact Pipeline.withArrays_arr spec0 launch0.win.arr_inj c _ _ 2
/-- The second call's likewise. -/
theorem outs_v11 (c : Dev nD) : outs m 6 main_v11 c = (Acc1.dat (in1 m) c).arrAt 2 cfg1.N := by
  show Pipeline.withArrays spec1 c (V5 m (outsFst m) c) (fun w => (Acc1.dat (in1 m) c).arrAt w cfg1.N) (Proc.devRef .tc (Pipeline.arrRef spec1 2)) = _
  exact Pipeline.withArrays_arr spec1 launch1.win.arr_inj c _ _ 2

/-- The second call's entry contents read only what the FIRST call left. -/
theorem V5_outs (c : Dev nD) : V5 m (outs m) c = V5 m (outsFst m) c := rfl

/-- At the first call's exit each of its arrays holds what the pipeline leaves: the two inputs what they held, the
    output the fold of its write-backs; -/
theorem exit0_arr (c : Dev nD) (w : Fin cfg0.W) :
    (Acc0.dat (in0 m) c).arrAt w cfg0.N = V3 m (outs m) c (Pipeline.arrRef spec0 w) := by
  match w with
  | ⟨0, _⟩ => exact ((Acc0.dat (in0 m) c).arrAt_in 0 rfl _).trans ((Acc0.A_eq (in0 m) c 0).trans (V3_of m (outs m) c main_arg2 (by decide)).symm)
  | ⟨1, _⟩ => exact ((Acc0.dat (in0 m) c).arrAt_in 1 rfl _).trans ((Acc0.A_eq (in0 m) c 1).trans (V3_of m (outs m) c main_v4 (by decide)).symm)
  | ⟨2, _⟩ =>
    show _ = Function.update (V2 m c) (Proc.devRef .tc main_v5) (outs m 3 main_v5 c) (Proc.devRef .tc main_v5)
    rw [Function.update_self]
    exact (outs_v5 m c).symm
/-- and every other buffer what it held at entry. -/
theorem exit0_rest (c : Dev nD) : ∀ b, b ∉ Finset.univ.image (Pipeline.arrRef spec0) → V3 m (outs m) c b = V2 m c b :=
  fun b hb => V3_of m (outs m) c b fun hb' =>
    hb (Finset.mem_image.mpr ⟨2, Finset.mem_univ _, (List.mem_singleton.mp hb').symm⟩)

/-- The same at the second call's exit. -/
theorem exit1_arr (c : Dev nD) (w : Fin cfg1.W) :
    (Acc1.dat (in1 m) c).arrAt w cfg1.N = V6 m (outs m) c (Pipeline.arrRef spec1 w) := by
  match w with
  | ⟨0, _⟩ => exact ((Acc1.dat (in1 m) c).arrAt_in 0 rfl _).trans ((Acc1.A_eq (in1 m) c 0).trans (V6_of m (outs m) c main_arg2 (by decide)).symm)
  | ⟨1, _⟩ => exact ((Acc1.dat (in1 m) c).arrAt_in 1 rfl _).trans ((Acc1.A_eq (in1 m) c 1).trans (V6_of m (outs m) c main_v10 (by decide)).symm)
  | ⟨2, _⟩ =>
    show _ = Function.update (V5 m (outs m) c) (Proc.devRef .tc main_v11) (outs m 6 main_v11 c) (Proc.devRef .tc main_v11)
    rw [Function.update_self]
    exact (outs_v11 m c).symm
theorem exit1_rest (c : Dev nD) : ∀ b, b ∉ Finset.univ.image (Pipeline.arrRef spec1) → V6 m (outs m) c b = V5 m (outs m) c b :=
  fun b hb => V6_of m (outs m) c b fun hb' =>
    hb (Finset.mem_image.mpr ⟨2, Finset.mem_univ _, (List.mem_singleton.mp hb').symm⟩)

/-! ## The proof data family and what rides beside the buffers -/

/-- Each call's proof data at its entry contents. -/
def pdats : (p : Fin 2) → (c : Dev nD) → Dat τ (Elt F) Unit ℕ (UR sig nD τ) ℕ (cfgs p) c
  | ⟨0, _⟩ => fun c => Acc0.dat (in0 m) c
  | ⟨1, _⟩ => fun c => Acc1.dat (in1 m) c

/-- No core owes another anything: no level is assigned. -/
abbrev noLevel : GSem nD τ sig → Finset Unit := fun _ => ∅
abbrev lvl0 : GSem nD τ sig → Unit → ℕ := fun _ _ => 0

/-- Beside the buffers, through every item: the core's generator register at some state and the core owing nothing. -/
abbrev rest (c : Dev nD) : sProp 𝕄 := iprop((∃ r, prngReg c r) ∗ ∃ W, owes (c : Thread nD τ) (0 : CellTallies nD τ sig Unit) W)

/-! ## The two calls as segments -/

-- `iapply` of a library lemma stated over the pinned configuration unifies with the printed one only when unification
-- may unfold plain definitions in a metavariable's type
set_option backward.isDefEq.respectTransparency.types false in
/-- Call 0 as a segment of @main: entered with every unscoped buffer at `V2 m`, left with them at `V3 m (outs m)`. Its three arrays
    are split out of the unscoped buffers and put back at what the pipeline's write-backs leave; the generator register
    goes into the invariant and comes back; the accumulator and the other scoped buffers come from the launch and go back;
    nothing is owed and the kernel has no semaphore of its own. -/
def call0 : Pipeline.RegionSeg (pcfgs (F := F)) adm (pdats m) () defs₀ Variants.none noLevel lvl0 0 where
  win := launch0.win.to₀
  block_pos := launch0.block_pos
  stage_whole := launch0.stage_whole
  K := PEmpty
  osem k := k.elim
  ho := Pipeline.OwnSemFacts.none _
  hbody c := (Acc0.body_obligation (in0 m) c).loose
  hwaits := Pipeline.hwaits_of_owed_zero _ _ _ _ noLevel lvl0 0 fun _ _ => rfl
  pre c := iprop(StableHlo.held (c : Thread nD τ) (Pipeline.ucRefs τ sig) (V2 m c) ∗ rest c)
  post c := iprop(StableHlo.held (c : Thread nD τ) (Pipeline.ucRefs τ sig) (V3 m (outs m) c) ∗ rest c)
  X c := iprop(∃ r, prngReg c r)
  Y c := iprop(∃ r, prngReg c r)
  Z c := Pipeline.unscopedRest (Ix := Unit) (Name := ℕ) (U := UR sig nD τ) (Lvl := ℕ) spec0 c (in0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (in0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Acc0.inv_in (in0 m) c)
    unfold Pipeline.ΦA
    iintro ⟨Hp, -, Hr⟩
    isplitl [Hr]; · iexact Hr
    iexact Hp
  hout c := by
    refine (Acc0.inv_out (in0 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (in0 m c) (fun b => V3 m (outs m) c b) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies with the printed one only when unification
-- may unfold plain definitions in a metavariable's type
set_option backward.isDefEq.respectTransparency.types false in
/-- Call 1 as a segment of @main: entered with every unscoped buffer at `V5 m (outsFst m)` (which is `V5 m (outs m)`: `V5_outs`), left with them at `V6 m (outs m)`. Its three arrays
    are split out of the unscoped buffers and put back at what the pipeline's write-backs leave; the generator register
    goes into the invariant and comes back; the accumulator and the other scoped buffers come from the launch and go back;
    nothing is owed and the kernel has no semaphore of its own. -/
def call1 : Pipeline.RegionSeg (pcfgs (F := F)) adm (pdats m) () defs₀ Variants.none noLevel lvl0 1 where
  win := launch1.win.to₀
  block_pos := launch1.block_pos
  stage_whole := launch1.stage_whole
  K := PEmpty
  osem k := k.elim
  ho := Pipeline.OwnSemFacts.none _
  hbody c := (Acc1.body_obligation (in1 m) c).loose
  hwaits := Pipeline.hwaits_of_owed_zero _ _ _ _ noLevel lvl0 1 fun _ _ => rfl
  pre c := iprop(StableHlo.held (c : Thread nD τ) (Pipeline.ucRefs τ sig) (V5 m (outsFst m) c) ∗ rest c)
  post c := iprop(StableHlo.held (c : Thread nD τ) (Pipeline.ucRefs τ sig) (V6 m (outs m) c) ∗ rest c)
  X c := iprop(∃ r, prngReg c r)
  Y c := iprop(∃ r, prngReg c r)
  Z c := Pipeline.unscopedRest (Ix := Unit) (Name := ℕ) (U := UR sig nD τ) (Lvl := ℕ) spec1 c (in1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (in1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Acc1.inv_in (in1 m) c)
    unfold Pipeline.ΦA
    iintro ⟨Hp, -, Hr⟩
    isplitl [Hr]; · iexact Hr
    iexact Hp
  hout c := by
    refine (Acc1.inv_out (in1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (in1 m c) (fun b => V6 m (outs m) c b) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

-- the launch theorem's implicit arguments are found by unifying its conclusion with this one, which takes unfolding
-- plain definitions in a metavariable's type
set_option backward.isDefEq.respectTransparency.types false in
/-- THE RUN. From any memory `m` with zero counters every weakly fair execution of @main terminates, nothing faulting,
    and every final memory holds every unscoped buffer of every core at the last valuation `V11 m (outs m) c`. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V11 m (outs m) c b) := by
  refine Pipeline.θ_run_regions_kit_dev (pcfgs (F := F)) adm (pdats m) () cellOf_inj emb₁ defs₀ Variants.none noLevel lvl0 m ρ main
    (segs m (outs m) Variants.none noLevel lvl0 (fun _ => rest) () (pdats m) (call0 m) (call1 m))
    (fun c Q => by
      rewrite [main_chain c, Seg.run_eq_chain,
        show (segs m (outs m) Variants.none noLevel lvl0 (fun _ => rest) () (pdats m) (call0 m) (call1 m) c).map Seg.prog = [
          StableHlo.seq hostOps0,
          StableHlo.seq hostOps0_1,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          StableHlo.seq hostOps2_2,
          StableHlo.seq hostOps2_3,
          StableHlo.seq hostOps2_4 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (V11 m (outs m) c))
    (hch := fun c => ⟨.rfl, .rfl, .rfl, .rfl, .rfl, .rfl, .rfl, .rfl, .rfl, .rfl, .rfl, sep_mono .rfl (by iintro ⟨-, H⟩; iexact H)⟩)
    (hinit := by
      refine Pipeline.initEach noLevel lvl0 fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V11 m (outs m) c b)
    (hfin := fun c s' => by
      iintro ⟨Hh, HSI⟩
      unfold StableHlo.held
      imodintro
      iapply (pointsTo_read_all (Pipeline.ucRefs τ sig) (fun b => (((c : Thread nD τ)).1, b)) (V11 m (outs m) c) s')
      isplitl [Hh] <;> iassumption)
    (hQ := fun _ h => h)

/-- An unscoped TensorCore reference is among those the run speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every argument array ends as launched — no host stretch writes one and no call may change one. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c =>
    ⟨(h c _ (mem_uc main_arg0 (by decide))).trans (V11_main_arg0 m (outs m) c),
     (h c _ (mem_uc main_arg1 (by decide))).trans (V11_main_arg1 m (outs m) c),
     (h c _ (mem_uc main_arg2 (by decide))).trans (V11_main_arg2 m (outs m) c),
     (h c _ (mem_uc main_arg3 (by decide))).trans (V11_main_arg3 m (outs m) c),
     (h c _ (mem_uc main_arg4 (by decide))).trans (V11_main_arg4 m (outs m) c),
     (h c _ (mem_uc main_arg5 (by decide))).trans (V11_main_arg5 m (outs m) c),
     (h c _ (mem_uc main_arg6 (by decide))).trans (V11_main_arg6 m (outs m) c),
     (h c _ (mem_uc main_arg7 (by decide))).trans (V11_main_arg7 m (outs m) c),
     (h c _ (mem_uc main_arg8 (by decide))).trans (V11_main_arg8 m (outs m) c),
     (h c _ (mem_uc main_arg9 (by decide))).trans (V11_main_arg9 m (outs m) c),
     (h c _ (mem_uc main_arg10 (by decide))).trans (V11_main_arg10 m (outs m) c),
     (h c _ (mem_uc main_arg11 (by decide))).trans (V11_main_arg11 m (outs m) c),
     (h c _ (mem_uc main_arg12 (by decide))).trans (V11_main_arg12 m (outs m) c),
     (h c _ (mem_uc main_arg13 (by decide))).trans (V11_main_arg13 m (outs m) c),
     (h c _ (mem_uc main_arg14 (by decide))).trans (V11_main_arg14 m (outs m) c),
     (h c _ (mem_uc main_arg15 (by decide))).trans (V11_main_arg15 m (outs m) c)⟩)
    (run_all m ρ)

end Cert.KernelIdeal.Whole

end
-- ==== Proof.KernelIdeal.AccValue0.lean ====
/-
  The first aggregation kernel's result at the exact instance, where every float is an extended real, the format
  changes are the identity and every operation is exact: the 8192×128 array the call leaves is the whole product
  `A·X` of the 8192×8192 matrix `A` and the 8192×128 matrix `X`, as one `dot_general` computes it.

  The kernel computes the product block by block: for each of four blocks of 2048 rows it runs over the contracted
  axis in eight blocks of 1024, adding each block product into an accumulator it zeroed at the first of them and
  writing the accumulator out at the last. So after point n = 8·i + k the accumulator's entry (p, q) is
      Σ_{j < 1024·(k + 1)} A(2048·i + p, j) · X(j, q),
  by induction on the point (`acc_apply`); at k = 7 that is the sum over all 8192 contraction coordinates, the entry
  (2048·i + p, q) of `A·X` (`acc_last_apply`). Only associativity and commutativity of addition are used: the extended
  reals are an additive commutative monoid, and no entry has to be finite. The four blocks written back cover the
  output array (`cover`), which therefore ends holding `A·X` (`final_eq`).
-/
import proofs.«101012_j62285615727119_1_alg».proof.Proof.KernelIdeal.AccData0
import Idealize.ShloMosaic.Lib.ValueIdx
import Idealize.ShloMosaic.Lib.Pipeline.Value
import Idealize.ShloMosaic.PureOps.Ideal.Laws
import Mathlib.Algebra.BigOperators.Fin

set_option maxRecDepth 16384

noncomputable section

namespace Cert.KernelIdeal.Acc0

open Cert.KernelIdeal Cert.KernelIdeal.Gen
open Idealize.ShloMosaic Idealize.ShloMosaic.TcCoe Idealize.ShloMosaic.ValueIdx
open Idealize.ShloMosaic.Pipeline (Dat Cfg Window)
open scoped BigOperators

/-! ## Matrix entries by natural-number coordinates, and the contraction's sum -/

/-- Entry `(r, k)` of a matrix over the extended reals, as a total function of two natural numbers (zero outside the
    matrix): sums over ranges of coordinates are then plain `Finset.range` sums. -/
def ent {n0 n1 : ℕ} (M : (⟨2, ![n0, n1]⟩ : Shape).Idx → EReal) (r k : ℕ) : EReal :=
  if h : r < n0 ∧ k < n1 then M (ix2 ⟨r, h.1⟩ ⟨k, h.2⟩) else 0

/-- Inside the matrix it is the entry. -/
theorem ent_eq {n0 n1 : ℕ} (M : (⟨2, ![n0, n1]⟩ : Shape).Idx → EReal) (a : Fin n0) (b : Fin n1) (r k : ℕ)
    (hr : r = a.val) (hk : k = b.val) : ent M r k = M (ix2 a b) := by
  subst hr hk
  unfold ent
  rw [dif_pos ⟨a.isLt, b.isLt⟩]

/-- A sum over one axis of a matrix product's terms, as a range sum of entries. -/
theorem sum_fin_ent {m k n : ℕ} (A : (⟨2, ![m, k]⟩ : Shape).Idx → EReal) (B : (⟨2, ![k, n]⟩ : Shape).Idx → EReal)
    (a : Fin m) (b : Fin n) :
    ∑ c : Fin k, A (ix2 a c) * B (ix2 c b) = ∑ c ∈ Finset.range k, ent A a.val c * ent B c b.val := by
  rw [← Fin.sum_univ_eq_sum_range (fun c => ent A a.val c * ent B c b.val) k]
  exact Finset.sum_congr rfl fun c _ => by rw [ent_eq A a c _ _ rfl rfl, ent_eq B c b _ _ rfl rfl]

/-- The contraction of an m×k by a k×n matrix over their shared axis — dimension numbers contract axis 1 of the left
    operand with axis 0 of the right — re-indexed by the coordinate on that axis. -/
theorem sum_contr {m k n : ℕ}
    (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (a : Fin m) (b : Fin n) :
    ∑ c : (⟨[1], [0], [0], [1], [], [], w⟩ : DotDims ⟨2, ![m, k]⟩ ⟨2, ![k, n]⟩ ⟨2, ![m, n]⟩).contr.Idx,
        A ((⟨[1], [0], [0], [1], [], [], w⟩ : DotDims ⟨2, ![m, k]⟩ ⟨2, ![k, n]⟩ ⟨2, ![m, n]⟩).lhsIdx (ix2 a b) c)
          * B ((⟨[1], [0], [0], [1], [], [], w⟩ : DotDims ⟨2, ![m, k]⟩ ⟨2, ![k, n]⟩ ⟨2, ![m, n]⟩).rhsIdx (ix2 a b) c)
      = ∑ c : Fin k, A (ix2 a c) * B (ix2 c b) := by
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have hc := contrEquiv1_symm_val (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

/-! ## One accumulation step, entry by entry -/

/-- The zero block is zero at every entry. -/
theorem zeroBlk_apply (j : S2048x128.Idx) : (zeroBlk (F := Ideal)) j = 0 := by
  unfold zeroBlk k0_pay1
  refine (congrFun (shapeCast_self _ _) j).trans ?_
  exact Ideal.ofBits_zero_f32

/-- One step at entry `(p, q)`: the accumulator's entry plus row `p` of the `A` block times column `q` of the `X`
    block. The format changes are the identity on extended reals and the product's own accumulator is the zero splat. -/
theorem step_apply (x0 : Vec Ideal S2048x1024 .f32) (x1 : Vec Ideal S1024x128 .f32) (s : Vec Ideal S2048x128 .f32)
    (p : Fin 2048) (q : Fin 128) :
    step x0 x1 s (ix2 p q) = s (ix2 p q) + ∑ kk : Fin 1024, x0 (ix2 p kk) * x1 (ix2 kk q) := by
  unfold step k0_pay2
  refine (congrFun (shapeCast_self _ _) (ix2 p q)).trans ?_
  refine congrArg (s (ix2 p q) + ·) ?_
  refine (Ideal.matmul_apply_of_eq (φ₁ := .bf16) (φ₂ := .bf16) dot_S2048x1024_S1024x128_S2048x128_1_0_0_1_n_n none _ _ _ (ix2 p q)
    (fun k => x0 (dot_S2048x1024_S1024x128_S2048x128_1_0_0_1_n_n.lhsIdx (ix2 p q) k))
    (fun k => x1 (dot_S2048x1024_S1024x128_S2048x128_1_0_0_1_n_n.rhsIdx (ix2 p q) k))
    (fun k => rfl) (fun k => congrFun (shapeCast_self x1 _) _)).trans ?_
  refine (congrArg (· + _) Ideal.ofBits_zero_f32).trans ?_
  rw [zero_add]
  exact sum_contr dot_S2048x1024_S1024x128_S2048x128_1_0_0_1_n_n_wf x0 x1 p q

/-! ## The blocks a point reads, as entries of the two arrays -/

variable (V : (c : Dev nD) → (b : Ref sig .tc) → Buf (Elt Ideal) ((c : Thread nD τ).loc b))

/-- The matrix `A` as the call finds it, -/
abbrev aarr (c : Dev nD) : Vec Ideal S8192x8192 .f32 := V c main_arg2
/-- and the matrix `X`. -/
abbrev xarr (c : Dev nD) : Vec Ideal S8192x128 .f32 := V c main_v4

/-- The windows' block indices at point `t` of the row-major (4, 8) grid: `A`'s block is (t / 8, t % 8), `X`'s is
    (t % 8, 0), the output's is (t / 8, 0). -/
theorem idx_facts : ∀ t : Fin cfg0.N, win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-- Entry `(p, kk)` of the `A` block at point `t` is `A` at row 2048·(t / 8) + p, column 1024·(t % 8) + kk: a block's
    coordinate is its index times its size plus the coordinate inside the block. -/
theorem ablk_apply (c : Dev nD) (t : Fin cfg0.N) (p : Fin 2048) (kk : Fin 1024) :
    ablk V c t (ix2 p kk) = ent (aarr V c) (2048 * (t.val / 8) + p.val) (1024 * (t.val % 8) + kk.val) := by
  obtain ⟨e0, e1, -⟩ := idx_facts t
  have hN : t.val < 32 := lt_of_lt_of_eq t.isLt (show cfg0.N = 32 from N_0)
  have hp := p.isLt
  have hk := kk.isLt
  rw [ent_eq (aarr V c) ⟨2048 * (t.val / 8) + p.val, by omega⟩ ⟨1024 * (t.val % 8) + kk.val, by omega⟩ _ _ rfl rfl]
  unfold ablk iblk
  rw [View.read_apply]
  show V c main_arg2 _ = V c main_arg2 _
  congr 1
  funext a
  apply Fin.ext
  match a with
  | ⟨0, _⟩ => show win0_0.index t 0 * 2048 + 1 * p.val = 2048 * (t.val / 8) + p.val; rw [e0]; omega
  | ⟨1, _⟩ => show win0_0.index t 1 * 1024 + 1 * kk.val = 1024 * (t.val % 8) + kk.val; rw [e1]; omega

/-- Entry `(kk, q)` of the `X` block at point `t` is `X` at row 1024·(t % 8) + kk, column q. -/
theorem xblk_apply (c : Dev nD) (t : Fin cfg0.N) (kk : Fin 1024) (q : Fin 128) :
    xblk V c t (ix2 kk q) = ent (xarr V c) (1024 * (t.val % 8) + kk.val) q.val := by
  obtain ⟨-, -, e2, e3, -⟩ := idx_facts t
  have hN : t.val < 32 := lt_of_lt_of_eq t.isLt (show cfg0.N = 32 from N_0)
  have hk := kk.isLt
  rw [ent_eq (xarr V c) ⟨1024 * (t.val % 8) + kk.val, by omega⟩ q _ _ rfl rfl]
  unfold xblk iblk
  rw [View.read_apply]
  show V c main_v4 _ = V c main_v4 _
  congr 1
  funext a
  apply Fin.ext
  match a with
  | ⟨0, _⟩ => show win0_1.index t 0 * 1024 + 1 * kk.val = 1024 * (t.val % 8) + kk.val; rw [e2]; omega
  | ⟨1, _⟩ => show win0_1.index t 1 * 128 + 1 * q.val = q.val; rw [e3]; omega

/-- The block product at point `t`, entry `(p, q)`: the terms of row 2048·(t / 8) + p of `A` times column `q` of `X`
    over the contraction coordinates 1024·(t % 8) … 1024·(t % 8) + 1023. -/
theorem blockSum (c : Dev nD) (t : Fin cfg0.N) (p : Fin 2048) (q : Fin 128) :
    ∑ kk : Fin 1024, ablk V c t (ix2 p kk) * xblk V c t (ix2 kk q)
      = ∑ kk ∈ Finset.range 1024, ent (aarr V c) (2048 * (t.val / 8) + p.val) (1024 * (t.val % 8) + kk)
          * ent (xarr V c) (1024 * (t.val % 8) + kk) q.val := by
  rw [← Fin.sum_univ_eq_sum_range (fun kk => ent (aarr V c) (2048 * (t.val / 8) + p.val) (1024 * (t.val % 8) + kk)
    * ent (xarr V c) (1024 * (t.val % 8) + kk) q.val) 1024]
  exact Finset.sum_congr rfl fun kk _ => by rw [ablk_apply, xblk_apply]

/-! ## The accumulator in closed form -/

/-- After point `n` the accumulator's entry `(p, q)` is the part of row 2048·(n / 8) + p of `A` times column `q` of `X`
    over the first 1024·(n % 8 + 1) contraction coordinates: a first point starts the sum, every other point appends
    its 1024 terms to what the point before left. -/
theorem acc_apply (c : Dev nD) : ∀ (n : ℕ) (hn : n < cfg0.N) (p : Fin 2048) (q : Fin 128),
    acc V c n hn (ix2 p q)
      = ∑ k ∈ Finset.range (1024 * (n % 8 + 1)), ent (aarr V c) (2048 * (n / 8) + p.val) k * ent (xarr V c) k q.val := by
  intro n
  induction n with
  | zero =>
    intro hn p q
    refine (congrFun (acc_first V c ⟨0, hn⟩ rfl) (ix2 p q)).trans ?_
    refine (step_apply (ablk V c ⟨0, hn⟩) (xblk V c ⟨0, hn⟩) _ p q).trans ?_
    rw [zeroBlk_apply, zero_add, blockSum V c ⟨0, hn⟩ p q]
    refine Finset.sum_congr rfl fun k _ => ?_
    show ent (aarr V c) (2048 * (0 / 8) + p.val) (1024 * (0 % 8) + k) * ent (xarr V c) (1024 * (0 % 8) + k) q.val = _
    rw [show 1024 * (0 % 8) + k = k by omega]
  | succ n ih =>
    intro hn p q
    by_cases h : (n + 1) % 8 = 0
    · refine (congrFun (acc_first V c ⟨n + 1, hn⟩ h) (ix2 p q)).trans ?_
      refine (step_apply (ablk V c ⟨n + 1, hn⟩) (xblk V c ⟨n + 1, hn⟩) _ p q).trans ?_
      rw [zeroBlk_apply, zero_add, blockSum V c ⟨n + 1, hn⟩ p q]
      show ∑ kk ∈ Finset.range 1024, ent (aarr V c) (2048 * ((n + 1) / 8) + p.val) (1024 * ((n + 1) % 8) + kk)
        * ent (xarr V c) (1024 * ((n + 1) % 8) + kk) q.val = _
      rw [h]
      refine Finset.sum_congr rfl fun k _ => ?_
      rw [show 1024 * 0 + k = k by omega]
    · refine (congrFun (acc_next V c ⟨n + 1, hn⟩ h) (ix2 p q)).trans ?_
      refine (step_apply (ablk V c ⟨n + 1, hn⟩) (xblk V c ⟨n + 1, hn⟩) _ p q).trans ?_
      rw [blockSum V c ⟨n + 1, hn⟩ p q]
      show acc V c n (Nat.lt_of_succ_lt hn) (ix2 p q)
        + ∑ kk ∈ Finset.range 1024, ent (aarr V c) (2048 * ((n + 1) / 8) + p.val) (1024 * ((n + 1) % 8) + kk)
          * ent (xarr V c) (1024 * ((n + 1) % 8) + kk) q.val = _
      rw [ih (Nat.lt_of_succ_lt hn) p q, show n / 8 = (n + 1) / 8 by omega, show n % 8 + 1 = (n + 1) % 8 by omega,
        show 1024 * ((n + 1) % 8 + 1) = 1024 * ((n + 1) % 8) + 1024 by omega,
        Finset.sum_range_add (fun k => ent (aarr V c) (2048 * ((n + 1) / 8) + p.val) k * ent (xarr V c) k q.val)]

/-! ## The whole product, and the blocks the call writes back -/

/-- The whole product `A·X` as one `dot_general` over the arrays the call finds, for any proof `w` that its dimension
    numbers are well formed. -/
abbrev prodOf (w : DotDims.WF S8192x8192 S8192x128 S8192x128 [1] [0] [0] [1] [] []) (c : Dev nD) :
    Vec Ideal S8192x128 .f32 :=
  Host.dotGeneral (F := Ideal) (φ₁ := .f32) (φ₂ := .f32) (⟨[1], [0], [0], [1], [], [], w⟩ : DotDims S8192x8192 S8192x128 S8192x128) none
    (V c main_arg2) (V c main_v4)

/-- Its entry `(r, q)`: row `r` of `A` times column `q` of `X` over all 8192 contraction coordinates. -/
theorem prodOf_apply (w : DotDims.WF S8192x8192 S8192x128 S8192x128 [1] [0] [0] [1] [] []) (c : Dev nD)
    (r : Fin 8192) (q : Fin 128) :
    prodOf V w c (ix2 r q)
      = ∑ k ∈ Finset.range 8192, ent (aarr V c) r.val k * ent (xarr V c) k q.val := by
  show FloatOps.dotGeneral (F := Ideal) (φ₁ := .f32) (φ₂ := .f32) _ none .single (aarr V c) (xarr V c) (ix2 r q) = _
  rw [Ideal.dotGeneral_apply]
  exact (sum_contr w (aarr V c) (xarr V c) r q).trans (sum_fin_ent (aarr V c) (xarr V c) r q)

/-- At the last point of a row block the accumulator holds that block of rows of the whole product: the eight
    runs of 1024 contraction coordinates make up all 8192. -/
theorem acc_last_apply (w : DotDims.WF S8192x8192 S8192x128 S8192x128 [1] [0] [0] [1] [] []) (c : Dev nD)
    (t : Fin cfg0.N) (h7 : t.val % 8 = 7) (p : Fin 2048) (q : Fin 128) (r : Fin 8192)
    (hr : r.val = 2048 * (t.val / 8) + p.val) :
    acc V c t.val t.isLt (ix2 p q) = prodOf V w c (ix2 r q) := by
  rw [prodOf_apply V w c r q, acc_apply V c t.val t.isLt p q, h7, hr]

/-- What a last point writes back is its block of the whole product. -/
theorem flushed_eq (w : DotDims.WF S8192x8192 S8192x128 S8192x128 [1] [0] [0] [1] [] []) (c : Dev nD)
    (t : Fin cfg0.N) (hf : (cfg0.win 2).flush t = true) :
    (dat (F := Ideal) V c).flushed 2 t = ((cfg0.win 2).blk t).view.read (Elt Ideal) (prodOf V w c) := by
  have h7 : t.val % 8 = 7 := (flush0_2 t).mp hf
  obtain ⟨-, -, -, -, e4, e5⟩ := idx_facts t
  show (cfg0.win 2).cut (grid0.coords t) ((dat (F := Ideal) V c).after 2 t) = _
  rw [after_2]
  funext y
  have hy0 : (y 0).val < 2048 := (y 0).isLt
  have hy1 : (y 1).val < 128 := (y 1).isLt
  have hN : t.val < 32 := lt_of_lt_of_eq t.isLt (show cfg0.N = 32 from N_0)
  rw [View.read_apply]
  refine Eq.trans ?_ ((acc_last_apply V w c t h7 ⟨(y 0).val, hy0⟩ ⟨(y 1).val, hy1⟩
    ⟨2048 * (t.val / 8) + (y 0).val, by omega⟩ rfl).trans ?_)
  · show acc V c t.val t.isLt ((cfg0.win 2).xinj (grid0.coords t) y) = acc V c t.val t.isLt (ix2 ⟨(y 0).val, hy0⟩ ⟨(y 1).val, hy1⟩)
    congr 1
    funext a
    match a with
    | ⟨0, _⟩ => rfl
    | ⟨1, _⟩ => rfl
  · show prodOf V w c (ix2 ⟨2048 * (t.val / 8) + (y 0).val, _⟩ ⟨(y 1).val, hy1⟩) = prodOf V w c (((cfg0.win 2).blk t).view.emb y)
    congr 1
    funext a
    apply Fin.ext
    match a with
    | ⟨0, _⟩ => show 2048 * (t.val / 8) + (y 0).val = win0_2.index t 0 * 2048 + 1 * (y 0).val; rw [e4]; omega
    | ⟨1, _⟩ => show (y 1).val = win0_2.index t 1 * 128 + 1 * (y 1).val; rw [e5]; omega

/-- Every entry of the output array is in the block some last point writes back: row `r` is in row block `r / 2048`,
    whose last point is 8·(r / 2048) + 7. -/
theorem cover (i : S8192x128.Idx) :
    ∃ t : Fin cfg0.N, (cfg0.win 2).flush t = true ∧ i ∈ ((cfg0.win 2).blk t).view.set := by
  have h0 : (i 0).val < 8192 := (i 0).isLt
  have h1 : (i 1).val < 128 := (i 1).isLt
  have hN : cfg0.N = 32 := N_0
  have ht : 8 * ((i 0).val / 2048) + 7 < cfg0.N := by rw [hN]; omega
  refine ⟨⟨8 * ((i 0).val / 2048) + 7, ht⟩, (flush0_2 _).mpr (by show (8 * ((i 0).val / 2048) + 7) % 8 = 7; omega), ?_⟩
  obtain ⟨-, -, -, -, e4, e5⟩ := idx_facts ⟨8 * ((i 0).val / 2048) + 7, ht⟩
  have e4' : win0_2.index ⟨8 * ((i 0).val / 2048) + 7, ht⟩ (0 : Fin 2) = (i 0).val / 2048 := by
    rw [e4]; show (8 * ((i 0).val / 2048) + 7) / 8 = _; omega
  show i ∈ ((View.whole main_v5).slice (win0_2.rect ⟨8 * ((i 0).val / 2048) + 7, ht⟩)).set
  rw [View.set_slice_whole, Rect.mem_set_unit]
  intro a
  match a with
  | ⟨0, _⟩ =>
    show win0_2.index ⟨8 * ((i 0).val / 2048) + 7, ht⟩ 0 * 2048 ≤ (i 0).val
      ∧ (i 0).val < win0_2.index ⟨8 * ((i 0).val / 2048) + 7, ht⟩ 0 * 2048 + 2048
    rw [e4']; omega
  | ⟨1, _⟩ =>
    show win0_2.index ⟨8 * ((i 0).val / 2048) + 7, ht⟩ 1 * 128 ≤ (i 1).val
      ∧ (i 1).val < win0_2.index ⟨8 * ((i 0).val / 2048) + 7, ht⟩ 1 * 128 + 128
    rw [e5]; omega

/-! ## The array the call leaves -/

theorem dotAX_wf : DotDims.WF S8192x8192 S8192x128 S8192x128 [1] [0] [0] [1] [] [] := by decide
/-- The whole product's dimension record: contract A's columns with X's rows. -/
def dotAX : DotDims S8192x8192 S8192x128 S8192x128 where
  lhsContracting := [1]
  rhsContracting := [0]
  lhsNonContracting := [0]
  rhsNonContracting := [1]
  lhsBatch := []
  rhsBatch := []
  wf := dotAX_wf
/-- After the call, the output array is the whole product A·X. -/
theorem final_eq (V : (c : Dev nD) → (b : Ref sig .tc) → Buf (Elt Ideal) ((c : Thread nD τ).loc b)) (c : Dev nD) :
    (dat (F := Ideal) V c).arrAt 2 cfg0.N = Host.dotGeneral (F := Ideal) (φ₁ := .f32) (φ₂ := .f32) dotAX none (V c main_arg2) (V c main_v4) :=
  (dat (F := Ideal) V c).arrAt_eq_of_cover 2 (prodOf V dotAX_wf c) (flushed_eq V dotAX_wf c) cover

end Cert.KernelIdeal.Acc0

end
-- ==== Proof.HostChain.lean ====
/-
  The host side shared by the two programs: the network's three stretches of host operations as
  functions of the arrays they read, what the kernel's host stretches leave in the buffers the
  aggregation regions read and in the result, and the reference's run as one function of its arguments.
-/
import proofs.«101012_j62285615727119_1_alg».proof.Proof.Gen.KernelIdeal.Regions
import proofs.«101012_j62285615727119_1_alg».proof.Proof.Gen.ReferenceIdeal.Run
import Idealize.ShloMosaic.Lib.StableHlo.Run
import Idealize.ShloMosaic.PureOps.Ideal

noncomputable section

namespace Cert.KernelIdeal.Chain

open Cert.KernelIdeal Cert.KernelIdeal.Gen Idealize.ShloMosaic Idealize.ShloMosaic.TcCoe Idealize.SL.Sem

variable {F : FTy → Type} [FloatOps F]

/-! ## The three host stretches as functions -/

/-- relu(nodes·We1 + be1): what main_v4 holds. -/
def stage0 (nodes : Vec F S8192x64 .f32) (We1 : Vec F S64x128 .f32) (be1 : Vec F S128 .f32) : Vec F S8192x128 .f32 :=
  maximumf
    (addf (Host.dotGeneral (F := F) dot_S8192x64_S64x128_S8192x128_1_0_0_1_n_n none nodes We1)
      (broadcastInDim S8192x128 ![0, 1] bcast_S1x128_S8192x128_0_1 (broadcastInDim S1x128 ![1] bcast_S128_S1x128_1 be1)))
    (broadcastInDim S8192x128 ![] bcast_S_S8192x128 (constant (F := F) S_ .f32 0x00000000#32))

/-- relu(a·We2 + be2) of the first aggregate a: what main_v10 holds. -/
def stage1 (a : Vec F S8192x128 .f32) (We2 : Vec F S128x64 .f32) (be2 : Vec F S64 .f32) : Vec F S8192x64 .f32 :=
  maximumf
    (addf (Host.dotGeneral (F := F) dot_S8192x128_S128x64_S8192x64_1_0_0_1_n_n none a We2)
      (broadcastInDim S8192x64 ![0, 1] bcast_S1x64_S8192x64_0_1 (broadcastInDim S1x64 ![1] bcast_S64_S1x64_1 be2)))
    (broadcastInDim S8192x64 ![] bcast_S_S8192x64 (constant (F := F) S_ .f32 0x00000000#32))

/-- The output head on the second aggregate a:
    (relu(relu([a·Weo + beo, actions]·Wc1 + bc1)·Wc2 + bc2)·Wq + bq) flattened: what main_v31 holds. -/
def stage2 (a : Vec F S8192x64 .f32) (actions : Vec F S8192x16 .f32) (Weo : Vec F S64x64 .f32) (beo : Vec F S64 .f32)
    (Wc1 : Vec F S80x128 .f32) (bc1 : Vec F S128 .f32) (Wc2 : Vec F S128x64 .f32) (bc2 : Vec F S64 .f32)
    (Wq : Vec F S64x1 .f32) (bq : Vec F S1 .f32) : Vec F S8192 .f32 :=
  shapeCast _
    (addf
      (Host.dotGeneral (F := F) dot_S8192x64_S64x1_S8192x1_1_0_0_1_n_n none
        (maximumf
          (addf
            (Host.dotGeneral (F := F) dot_S8192x128_S128x64_S8192x64_1_0_0_1_n_n none
              (maximumf
                (addf
                  (Host.dotGeneral (F := F) dot_S8192x80_S80x128_S8192x128_1_0_0_1_n_n none
                    (concatenate S8192x80 1
                      [⟨S8192x64, addf (Host.dotGeneral (F := F) dot_S8192x64_S64x64_S8192x64_1_0_0_1_n_n none a Weo)
                          (broadcastInDim S8192x64 ![0, 1] bcast_S1x64_S8192x64_0_1 (broadcastInDim S1x64 ![1] bcast_S64_S1x64_1 beo))⟩,
                       ⟨S8192x16, actions⟩]
                      concatenates_S8192x64_S8192x16_S8192x80_d1)
                    Wc1)
                  (broadcastInDim S8192x128 ![0, 1] bcast_S1x128_S8192x128_0_1 (broadcastInDim S1x128 ![1] bcast_S128_S1x128_1 bc1)))
                (broadcastInDim S8192x128 ![] bcast_S_S8192x128 (constant (F := F) S_ .f32 0x00000000#32)))
              Wc2)
            (broadcastInDim S8192x64 ![0, 1] bcast_S1x64_S8192x64_0_1 (broadcastInDim S1x64 ![1] bcast_S64_S1x64_1 bc2)))
          (broadcastInDim S8192x64 ![] bcast_S_S8192x64 (constant (F := F) S_ .f32 0x00000000#32)))
        Wq)
      (broadcastInDim S8192x1 ![0, 1] bcast_S1x1_S8192x1_0_1 (broadcastInDim S1x1 ![1] bcast_S1_S1x1_1 bq)))
    shapeCasts_S8192x1_S8192

/-! ## What the kernel's host stretches compute

Each stretch is read once over an arbitrary valuation of the buffers before it; the buffers it reads are then
followed back to the launch memory (no item writes an argument) or to what the region before it left. -/

/-- The first two stretches from any contents: relu(arg0·arg4 + arg5) lands in main_v4. -/
theorem after0_v4 (W : Valuation τ sig (Elt F)) :
    StableHlo.after hostOps0_1 (StableHlo.after hostOps0 W) main_v4 = stage0 (W main_arg0) (W main_arg4) (W main_arg5) := by
  dsimp only [hostOps0, hostOps0_1]
  after_results
  rfl

/-- The two stretches after the first region from any contents: relu(v5·arg6 + arg7) lands in main_v10. -/
theorem after1_v10 (W : Valuation τ sig (Elt F)) :
    StableHlo.after hostOps1_1 (StableHlo.after hostOps1 W) main_v10 = stage1 (W main_v5) (W main_arg6) (W main_arg7) := by
  dsimp only [hostOps1, hostOps1_1]
  after_results
  rfl

set_option maxHeartbeats 1000000 in
/-- The five stretches after the second region from any contents: the output head of v11 lands in main_v31. -/
theorem after2_v31 (W : Valuation τ sig (Elt F)) :
    StableHlo.after hostOps2_4 (StableHlo.after hostOps2_3 (StableHlo.after hostOps2_2 (StableHlo.after hostOps2_1 (StableHlo.after hostOps2 W)))) main_v31
      = stage2 (W main_v11) (W main_arg3) (W main_arg8) (W main_arg9) (W main_arg10) (W main_arg11) (W main_arg12)
          (W main_arg13) (W main_arg14) (W main_arg15) := by
  dsimp only [hostOps2, hostOps2_1, hostOps2_2, hostOps2_3, hostOps2_4]
  after_results_simp
  rfl

section Launch

variable (m : (ℓ : Loc nD τ sig) → Buf (Elt F) ℓ) (outs : Outs (F := F)) (c : Dev nD)

/-- A buffer the first two stretches do not write holds its launch contents after them. -/
theorem V2_launch (r : Ref sig .tc) (h1 : r ∉ hostOps0_1_W) (h0 : r ∉ hostOps0_W) : V2 m c r = m ((c : Thread nD τ).loc r) :=
  (V2_of m c r h1).trans ((V1_of m c r h0).trans rfl)

/-- The first region's output array after it holds what the region left. -/
theorem V3_v5 : V3 m outs c main_v5 = outs 3 main_v5 c := Function.update_self ..

/-- A buffer neither the first region nor the stretches before it write holds its launch contents. -/
theorem V3_launch (r : Ref sig .tc) (h : r ∉ ([main_v5] : List (Ref sig .tc))) (h1 : r ∉ hostOps0_1_W) (h0 : r ∉ hostOps0_W) :
    V3 m outs c r = m ((c : Thread nD τ).loc r) :=
  (V3_of m outs c r h).trans (V2_launch m c r h1 h0)

/-- A buffer nothing before the second region writes holds its launch contents after the two stretches that follow the first region. -/
theorem V5_launch (r : Ref sig .tc) (h4 : r ∉ hostOps1_1_W) (h3 : r ∉ hostOps1_W) (h : r ∉ ([main_v5] : List (Ref sig .tc)))
    (h1 : r ∉ hostOps0_1_W) (h0 : r ∉ hostOps0_W) : V5 m outs c r = m ((c : Thread nD τ).loc r) :=
  (V5_of m outs c r h4).trans ((V4_of m outs c r h3).trans (V3_launch m outs c r h h1 h0))

/-- The second region's output array after it holds what the region left. -/
theorem V6_v11 : V6 m outs c main_v11 = outs 6 main_v11 c := Function.update_self ..

/-- A buffer nothing up to the second region writes holds its launch contents after it. -/
theorem V6_launch (r : Ref sig .tc) (h' : r ∉ ([main_v11] : List (Ref sig .tc))) (h4 : r ∉ hostOps1_1_W) (h3 : r ∉ hostOps1_W)
    (h : r ∉ ([main_v5] : List (Ref sig .tc))) (h1 : r ∉ hostOps0_1_W) (h0 : r ∉ hostOps0_W) :
    V6 m outs c r = m ((c : Thread nD τ).loc r) :=
  (V6_of m outs c r h').trans (V5_launch m outs c r h4 h3 h h1 h0)

end Launch

theorem V2_v4 (m : (ℓ : Loc nD τ sig) → Buf (Elt F) ℓ) (c : Dev nD) :
    V2 m c main_v4 = stage0 (m ((c : Thread nD τ).loc main_arg0)) (m ((c : Thread nD τ).loc main_arg4)) (m ((c : Thread nD τ).loc main_arg5)) :=
  after0_v4 (V0 m c)

theorem V2_arg2 (m : (ℓ : Loc nD τ sig) → Buf (Elt F) ℓ) (c : Dev nD) : V2 m c main_arg2 = m ((c : Thread nD τ).loc main_arg2) :=
  V2_launch m c main_arg2 (by decide) (by decide)

theorem V5_v10 (m : (ℓ : Loc nD τ sig) → Buf (Elt F) ℓ) (outs : Outs (F := F)) (c : Dev nD) :
    V5 m outs c main_v10 = stage1 (outs 3 main_v5 c) (m ((c : Thread nD τ).loc main_arg6)) (m ((c : Thread nD τ).loc main_arg7)) :=
  (after1_v10 (V3 m outs c)).trans (by
    rw [V3_v5, V3_launch m outs c main_arg6 (by decide) (by decide) (by decide),
      V3_launch m outs c main_arg7 (by decide) (by decide) (by decide)])

theorem V5_arg2 (m : (ℓ : Loc nD τ sig) → Buf (Elt F) ℓ) (outs : Outs (F := F)) (c : Dev nD) :
    V5 m outs c main_arg2 = m ((c : Thread nD τ).loc main_arg2) :=
  V5_launch m outs c main_arg2 (by decide) (by decide) (by decide) (by decide) (by decide)

theorem V11_v31 (m : (ℓ : Loc nD τ sig) → Buf (Elt F) ℓ) (outs : Outs (F := F)) (c : Dev nD) :
    V11 m outs c main_v31 = stage2 (outs 6 main_v11 c) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  (after2_v31 (V6 m outs c)).trans (by
    rw [V6_v11, V6_launch m outs c main_arg3 (by decide) (by decide) (by decide) (by decide) (by decide) (by decide),
      V6_launch m outs c main_arg8 (by decide) (by decide) (by decide) (by decide) (by decide) (by decide),
      V6_launch m outs c main_arg9 (by decide) (by decide) (by decide) (by decide) (by decide) (by decide),
      V6_launch m outs c main_arg10 (by decide) (by decide) (by decide) (by decide) (by decide) (by decide),
      V6_launch m outs c main_arg11 (by decide) (by decide) (by decide) (by decide) (by decide) (by decide),
      V6_launch m outs c main_arg12 (by decide) (by decide) (by decide) (by decide) (by decide) (by decide),
      V6_launch m outs c main_arg13 (by decide) (by decide) (by decide) (by decide) (by decide) (by decide),
      V6_launch m outs c main_arg14 (by decide) (by decide) (by decide) (by decide) (by decide) (by decide),
      V6_launch m outs c main_arg15 (by decide) (by decide) (by decide) (by decide) (by decide) (by decide)])

/-! ## The reference as one function -/

/-- The first adjacency product's dimensions are well formed. -/
theorem dotAdj128_wf : DotDims.WF S8192x8192 S8192x128 S8192x128 [1] [0] [0] [1] [] [] := by decide
/-- adjacency · x for x of 128 columns: contract the adjacency's columns with x's rows. -/
def dotAdj128 : DotDims S8192x8192 S8192x128 S8192x128 where
  lhsContracting := [1]
  rhsContracting := [0]
  lhsNonContracting := [0]
  rhsNonContracting := [1]
  lhsBatch := []
  rhsBatch := []
  wf := dotAdj128_wf
/-- The second adjacency product's dimensions are well formed. -/
theorem dotAdj64_wf : DotDims.WF S8192x8192 S8192x64 S8192x64 [1] [0] [0] [1] [] [] := by decide
/-- adjacency · x for x of 64 columns. -/
def dotAdj64 : DotDims S8192x8192 S8192x64 S8192x64 where
  lhsContracting := [1]
  rhsContracting := [0]
  lhsNonContracting := [0]
  rhsNonContracting := [1]
  lhsBatch := []
  rhsBatch := []
  wf := dotAdj64_wf

/-- The whole network as one function of the fifteen float arguments, each aggregation the whole product adjacency·x. -/
def modelOut (nodes : Vec Ideal S8192x64 .f32) (adj : Vec Ideal S8192x8192 .f32) (actions : Vec Ideal S8192x16 .f32)
    (We1 : Vec Ideal S64x128 .f32) (be1 : Vec Ideal S128 .f32) (We2 : Vec Ideal S128x64 .f32) (be2 : Vec Ideal S64 .f32)
    (Weo : Vec Ideal S64x64 .f32) (beo : Vec Ideal S64 .f32) (Wc1 : Vec Ideal S80x128 .f32) (bc1 : Vec Ideal S128 .f32)
    (Wc2 : Vec Ideal S128x64 .f32) (bc2 : Vec Ideal S64 .f32) (Wq : Vec Ideal S64x1 .f32) (bq : Vec Ideal S1 .f32) :
    Vec Ideal S8192 .f32 :=
  stage2 (Host.dotGeneral (F := Ideal) (φ₁ := .f32) (φ₂ := .f32) dotAdj64 none adj (stage1 (Host.dotGeneral (F := Ideal) (φ₁ := .f32) (φ₂ := .f32) dotAdj128 none adj (stage0 nodes We1 be1)) We2 be2)) actions Weo beo Wc1 bc1 Wc2 bc2 Wq bq

/-- The reference runs, ends at modelOut of its arguments, and leaves its arguments unchanged. -/
theorem ref_value (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
        r.2.mem ((c.tc : Thread Cert.ReferenceIdeal.nD Cert.ReferenceIdeal.τ).loc Cert.ReferenceIdeal.main_v31)
          = modelOut (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
            (m' ((c.tc : Thread Cert.ReferenceIdeal.nD Cert.ReferenceIdeal.τ).loc Cert.ReferenceIdeal.main_arg4))
            (m' ((c.tc : Thread Cert.ReferenceIdeal.nD Cert.ReferenceIdeal.τ).loc Cert.ReferenceIdeal.main_arg5))
            (m' ((c.tc : Thread Cert.ReferenceIdeal.nD Cert.ReferenceIdeal.τ).loc Cert.ReferenceIdeal.main_arg6))
            (m' ((c.tc : Thread Cert.ReferenceIdeal.nD Cert.ReferenceIdeal.τ).loc Cert.ReferenceIdeal.main_arg7))
            (m' ((c.tc : Thread Cert.ReferenceIdeal.nD Cert.ReferenceIdeal.τ).loc Cert.ReferenceIdeal.main_arg8))
            (m' ((c.tc : Thread Cert.ReferenceIdeal.nD Cert.ReferenceIdeal.τ).loc Cert.ReferenceIdeal.main_arg9))
            (m' ((c.tc : Thread Cert.ReferenceIdeal.nD Cert.ReferenceIdeal.τ).loc Cert.ReferenceIdeal.main_arg10))
            (m' ((c.tc : Thread Cert.ReferenceIdeal.nD Cert.ReferenceIdeal.τ).loc Cert.ReferenceIdeal.main_arg11))
            (m' ((c.tc : Thread Cert.ReferenceIdeal.nD Cert.ReferenceIdeal.τ).loc Cert.ReferenceIdeal.main_arg12))
            (m' ((c.tc : Thread Cert.ReferenceIdeal.nD Cert.ReferenceIdeal.τ).loc Cert.ReferenceIdeal.main_arg13))
            (m' ((c.tc : Thread Cert.ReferenceIdeal.nD Cert.ReferenceIdeal.τ).loc Cert.ReferenceIdeal.main_arg14))
            (m' ((c.tc : Thread Cert.ReferenceIdeal.nD Cert.ReferenceIdeal.τ).loc Cert.ReferenceIdeal.main_arg15))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)) :=
  (θ_run _ _ _).mono (fun _ h c => ⟨(h c).1.trans rfl, (h c).2⟩) (Cert.ReferenceIdeal.Value.run (F := Ideal) m' ρ')

end Cert.KernelIdeal.Chain

end
-- ==== Proof.KernelValue.lean ====
/-
  The idealized kernel's result as one function of its arguments. After the run every unscoped buffer holds the last
  valuation of `MainRun`; read at the result buffer `main_v31` it is the output head (`stage2`) applied to what the
  second call leaves in `main_v11`. Each call leaves the whole product of the adjacency matrix with the activation it
  was handed (`Acc0.final_eq`, `Acc1.final_eq`), and the activations are the host stages `stage0`, `stage1` of
  the arguments and of the first product. Composed, the result is `modelOut` of the fifteen float arguments — the same
  function the reference computes with two plain products.
-/
import proofs.«101012_j62285615727119_1_alg».proof.Proof.KernelIdeal.MainRun
import proofs.«101012_j62285615727119_1_alg».proof.Proof.KernelIdeal.AccValue0
import proofs.«101012_j62285615727119_1_alg».proof.Proof.KernelIdeal.AccValue1
import proofs.«101012_j62285615727119_1_alg».proof.Proof.HostChain

set_option maxRecDepth 16384

noncomputable section

namespace Cert.KernelIdeal.Whole

open Cert.KernelIdeal Cert.KernelIdeal.Gen Cert.KernelIdeal.Chain
open Idealize.ShloMosaic Idealize.ShloMosaic.TcCoe Idealize.SL.Sem

variable (m : (ℓ : Loc nD τ sig) → Buf (Elt Ideal) ℓ)

/-- The two records of a whole adjacency product, stated once for the calls and once for the network, are one record. -/
theorem dotAX0_eq : Acc0.dotAX = dotAdj128 := rfl
theorem dotAX1_eq : Acc1.dotAX = dotAdj64 := rfl

/-- The first call leaves in `main_v5` the adjacency matrix times relu(nodes·We1 + be1). -/
theorem agg0_eq (c : Dev nD) :
    outs m 3 main_v5 c = Host.dotGeneral (F := Ideal) (φ₁ := .f32) (φ₂ := .f32) dotAdj128 none (m ((c : Thread nD τ).loc main_arg2))
      (stage0 (m ((c : Thread nD τ).loc main_arg0)) (m ((c : Thread nD τ).loc main_arg4)) (m ((c : Thread nD τ).loc main_arg5))) := by
  rw [outs_v5, Acc0.final_eq, dotAX0_eq]
  show Host.dotGeneral (F := Ideal) (φ₁ := .f32) (φ₂ := .f32) dotAdj128 none (V2 m c main_arg2) (V2 m c main_v4) = _
  rw [V2_arg2, V2_v4]

/-- The second call leaves in `main_v11` the adjacency matrix times relu(a·We2 + be2), `a` what the first call left. -/
theorem agg1_eq (c : Dev nD) :
    outs m 6 main_v11 c = Host.dotGeneral (F := Ideal) (φ₁ := .f32) (φ₂ := .f32) dotAdj64 none (m ((c : Thread nD τ).loc main_arg2))
      (stage1 (outs m 3 main_v5 c) (m ((c : Thread nD τ).loc main_arg6)) (m ((c : Thread nD τ).loc main_arg7))) := by
  rw [outs_v11, Acc1.final_eq, dotAX1_eq]
  show Host.dotGeneral (F := Ideal) (φ₁ := .f32) (φ₂ := .f32) dotAdj64 none (V5 m (outsFst m) c main_arg2) (V5 m (outsFst m) c main_v10) = _
  rw [V5_arg2, V5_v10]
  rfl

/-- The result buffer after the run is the whole network of the arguments. -/
theorem result_eq (c : Dev nD) :
    V11 m (outs m) c main_v31 = modelOut (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  rw [V11_v31, agg1_eq, agg0_eq]
  rfl

/-- THE VALUE RUN of the idealized kernel: it terminates with its result at `modelOut` of its arguments, and leaves
    the arguments unchanged. -/
theorem value_run (ρ : Dev nD → PrngReg) : θ_run defs (onTc (τ := τ) (main (F := Ideal))) ⟨m, fun _ => 0, ρ⟩ (fun r => ∀ c : Dev nD,
      r.2.mem ((c.tc : Thread nD τ).loc main_v31) = modelOut (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c =>
    ⟨(h c _ (mem_uc main_v31 (by decide))).trans (result_eq m c),
     (h c _ (mem_uc main_arg0 (by decide))).trans (V11_main_arg0 m (outs m) c),
     (h c _ (mem_uc main_arg1 (by decide))).trans (V11_main_arg1 m (outs m) c),
     (h c _ (mem_uc main_arg2 (by decide))).trans (V11_main_arg2 m (outs m) c),
     (h c _ (mem_uc main_arg3 (by decide))).trans (V11_main_arg3 m (outs m) c),
     (h c _ (mem_uc main_arg4 (by decide))).trans (V11_main_arg4 m (outs m) c),
     (h c _ (mem_uc main_arg5 (by decide))).trans (V11_main_arg5 m (outs m) c),
     (h c _ (mem_uc main_arg6 (by decide))).trans (V11_main_arg6 m (outs m) c),
     (h c _ (mem_uc main_arg7 (by decide))).trans (V11_main_arg7 m (outs m) c),
     (h c _ (mem_uc main_arg8 (by decide))).trans (V11_main_arg8 m (outs m) c),
     (h c _ (mem_uc main_arg9 (by decide))).trans (V11_main_arg9 m (outs m) c),
     (h c _ (mem_uc main_arg10 (by decide))).trans (V11_main_arg10 m (outs m) c),
     (h c _ (mem_uc main_arg11 (by decide))).trans (V11_main_arg11 m (outs m) c),
     (h c _ (mem_uc main_arg12 (by decide))).trans (V11_main_arg12 m (outs m) c),
     (h c _ (mem_uc main_arg13 (by decide))).trans (V11_main_arg13 m (outs m) c),
     (h c _ (mem_uc main_arg14 (by decide))).trans (V11_main_arg14 m (outs m) c),
     (h c _ (mem_uc main_arg15 (by decide))).trans (V11_main_arg15 m (outs m) c)⟩)
    (run_all m ρ)

end Cert.KernelIdeal.Whole

end
-- ==== Proof.lean ====
/-
  The certificate of a graph critic: an MLP over 8192 nodes whose two message-passing steps
  `adjacency @ x` (an 8192×8192 matrix times an 8192×128, then an 8192×64, activation) the kernel computes by a tiled
  Pallas matmul with a scratch accumulator, and the reference by one product each.

  * The three frames. The reference is host operations only: its generated run. The kernel's two programs (word level
    and idealized) are the same text at two float instances: `Whole.frame` — @main's eleven items chained from the
    launch, each call's body run point by point with the accumulator carried in the invariant.
  * `preserves` has no entry: the idealization rewrote nothing.
  * `algebraic`: at the ideal instance both programs end at `Chain.modelOut` of the fifteen float arguments. For the
    kernel each call's eight partial products of 1024 columns, summed in the accumulator from zero, are the whole product
    (a sum over 8192 regrouped into 8 × 1024 — addition on the extended reals is commutative and associative, so no
    finiteness is needed); the host operations around the calls are the reference's own.
-/
import proofs.«101012_j62285615727119_1_alg».proof.Defs
import proofs.«101012_j62285615727119_1_alg».proof.Proof.Gen.Kernel
import proofs.«101012_j62285615727119_1_alg».proof.Proof.Gen.KernelIdeal
import proofs.«101012_j62285615727119_1_alg».proof.Proof.Gen.ReferenceIdeal
import proofs.«101012_j62285615727119_1_alg».proof.Proof.Gen.Pre_finite_inputs
import proofs.«101012_j62285615727119_1_alg».proof.Proof.Kernel.MainRun
import proofs.«101012_j62285615727119_1_alg».proof.Proof.KernelValue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel :=
  fun m ρ _ => Cert.Kernel.Whole.frame (F := Bits) m ρ

/-- So does the idealized kernel. -/
theorem frame_ki : Cert.frame_KernelIdeal :=
  fun m ρ _ => Cert.KernelIdeal.Whole.frame (F := Ideal) m ρ

/-- The reference is its generated run with the result dropped. -/
theorem frame_ri : Cert.frame_ReferenceIdeal :=
  fun m ρ _ => (θ_run Cert.ReferenceIdeal.defs _ _).mono (fun _ h c => (h c).2) (Cert.ReferenceIdeal.Value.run (F := Ideal) m ρ)

/-- Run from memories that agree on the arguments, both idealized programs end at `modelOut` of those arguments. -/
theorem algebraic : Cert.algebraic_KernelIdeal_ReferenceIdeal := by
  intro m ρ m' ρ' _ hagree
  refine ⟨_, Cert.KernelIdeal.Whole.value_run m ρ, ?_⟩
  refine (θ_run Cert.ReferenceIdeal.defs _ _).mono (fun _ h c => ⟨(h c).1.trans ?_, (h c).2⟩)
    (Cert.KernelIdeal.Chain.ref_value m' ρ')
  obtain ⟨h0, _, h2, h3, h4, h5, h6, h7, h8, h9, h10, h11, h12, h13, h14, h15⟩ := hagree c
  rw [h0, h2, h3, h4, h5, h6, h7, h8, h9, h10, h11, h12, h13, h14, h15]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
